-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 93
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S1, .i32⟩
  | .hbm, ⟨40, _⟩ => ⟨S_, .i32⟩
  | .hbm, ⟨41, _⟩ => ⟨S800000x1, .i32⟩
  | .hbm, ⟨42, _⟩ => ⟨S800000x1, .i1⟩
  | .hbm, ⟨43, _⟩ => ⟨S1x1, .i32⟩
  | .hbm, ⟨44, _⟩ => ⟨S800000x1, .i32⟩
  | .hbm, ⟨45, _⟩ => ⟨S800000x1, .i1⟩
  | .hbm, ⟨46, _⟩ => ⟨S800000x1, .i1⟩
  | .hbm, ⟨47, _⟩ => ⟨S_, .i1⟩
  | .hbm, ⟨48, _⟩ => ⟨S800000, .i1⟩
  | .hbm, ⟨49, _⟩ => ⟨S800000x128, .f32⟩
  | .hbm, ⟨50, _⟩ => ⟨S800000x128, .i1⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S1, .i32⟩
  | .hbm, ⟨71, _⟩ => ⟨S_, .i32⟩
  | .hbm, ⟨72, _⟩ => ⟨S800000x1, .i32⟩
  | .hbm, ⟨73, _⟩ => ⟨S800000x1, .i1⟩
  | .hbm, ⟨74, _⟩ => ⟨S1x1, .i32⟩
  | .hbm, ⟨75, _⟩ => ⟨S800000x1, .i32⟩
  | .hbm, ⟨76, _⟩ => ⟨S800000x1, .i1⟩
  | .hbm, ⟨77, _⟩ => ⟨S800000x1, .i1⟩
  | .hbm, ⟨78, _⟩ => ⟨S_, .i1⟩
  | .hbm, ⟨79, _⟩ => ⟨S800000, .i1⟩
  | .hbm, ⟨80, _⟩ => ⟨S800000x128, .f32⟩
  | .hbm, ⟨81, _⟩ => ⟨S800000x128, .i1⟩
  | .hbm, ⟨82, _⟩ => ⟨S_, .f32⟩
  | .hbm, ⟨83, _⟩ => ⟨S800000x128, .f32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v23 : Ref sig .tc := ⟨.hbm, 84, rfl⟩
abbrev main_cst_6 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S1, .i32⟩
  | .hbm, ⟨40, _⟩ => ⟨S_, .i32⟩
  | .hbm, ⟨41, _⟩ => ⟨S800000x1, .i32⟩
  | .hbm, ⟨42, _⟩ => ⟨S800000x1, .i1⟩
  | .hbm, ⟨43, _⟩ => ⟨S1x1, .i32⟩
  | .hbm, ⟨44, _⟩ => ⟨S800000x1, .i32⟩
  | .hbm, ⟨45, _⟩ => ⟨S800000x1, .i1⟩
  | .hbm, ⟨46, _⟩ => ⟨S800000x1, .i1⟩
  | .hbm, ⟨47, _⟩ => ⟨S_, .i1⟩
  | .hbm, ⟨48, _⟩ => ⟨S800000, .i1⟩
  | .hbm, ⟨49, _⟩ => ⟨S800000x128, .f32⟩
  | .hbm, ⟨50, _⟩ => ⟨S800000x128, .i1⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S1, .i32⟩
  | .hbm, ⟨79, _⟩ => ⟨S_, .i32⟩
  | .hbm, ⟨80, _⟩ => ⟨S800000x1, .i32⟩
  | .hbm, ⟨81, _⟩ => ⟨S800000x1, .i1⟩
  | .hbm, ⟨82, _⟩ => ⟨S1x1, .i32⟩
  | .hbm, ⟨83, _⟩ => ⟨S800000x1, .i32⟩
  | .hbm, ⟨84, _⟩ => ⟨S800000x1, .i1⟩
  | .hbm, ⟨85, _⟩ => ⟨S800000x1, .i1⟩
  | .hbm, ⟨86, _⟩ => ⟨S_, .i1⟩
  | .hbm, ⟨87, _⟩ => ⟨S800000, .i1⟩
  | .hbm, ⟨88, _⟩ => ⟨S800000x128, .f32⟩
  | .hbm, ⟨89, _⟩ => ⟨S800000x128, .i1⟩
  | .hbm, ⟨90, _⟩ => ⟨S_, .f32⟩
  | .hbm, ⟨91, _⟩ => ⟨S800000x128, .f32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S50000x1, .f32⟩
  | .hbm, ⟨98, _⟩ => ⟨S50000x128, .f32⟩
  | .hbm, ⟨99, _⟩ => ⟨S50000x128, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_call2_cst : Ref sig .tc := ⟨.hbm, 67, rfl⟩
abbrev main_call2_v0 : Ref sig .tc := ⟨.hbm, 68, rfl⟩
abbrev main_v28 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_cst : Ref sig .tc := ⟨.hbm, 90, rfl⟩
abbrev main_call3_v15 : Ref sig .tc := ⟨.hbm, 91, rfl⟩
abbrev main_v29 : Ref sig .tc := ⟨.hbm, 92, rfl⟩
abbrev main_cst_6 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KerChain.lean ====
/-
  The neighbour-mean aggregation, as the host computes it, written as a function of the edge list and the features.

  The edge list's first row holds each edge's source node and its second row the destination. The in-degree of a node
  is the sum of ones over the edges that end there; the inverse degree is `1 / max (deg, 1)` where the degree is
  positive and `0` elsewhere. The rows of the features at the edges' sources are taken (an index below zero counts
  from the end, and a row still out of range reads as the fill word), added up at the edges' destinations, and every
  row of the sums is multiplied by its node's inverse degree.
-/
import proofs.«137018_j9998683865369_1_alg».proof.KernelIdeal

noncomputable section

namespace Cert.KernelIdeal.Chain

open Idealize.ShloMosaic Cert.KernelIdeal
open Cert.KernelIdeal.Facts₀ Cert.KernelIdeal.Facts

variable {F : FTy → Type} [FloatOps F] [Cert.KernelIdeal.Facts]

/-- The edges' source nodes: row 0 of the edge list. -/
def srcIdx (ei : Vec F S2x800000 .i32) : Vec F S800000 .i32 :=
  shapeCast S800000 (extractStridedSlice S1x800000 ![0, 0] ei slices_S2x800000_S1x800000_0_0) shapeCasts_S1x800000_S800000

/-- The edges' destination nodes: row 1 of the edge list. -/
def dstIdx (ei : Vec F S2x800000 .i32) : Vec F S800000 .i32 :=
  shapeCast S800000 (extractStridedSlice S1x800000 ![1, 0] ei slices_S2x800000_S1x800000_1_0) shapeCasts_S1x800000_S800000

/-- The in-degree of every node: ones added up at the edges' destinations. -/
def degree (dst : Vec F S800000 .i32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The inverse in-degree: `1 / max (deg, 1)` where the degree is positive, `0` elsewhere. -/
def degInv (dst : Vec F S800000 .i32) : FVec F S50000 .f32 :=
  select
    (cmpf .ogt (degree dst) (broadcastInDim S50000 ![] bcast_S_S50000 (constant S_ .f32 0x00000000#32)))
    (Host.divf (broadcastInDim S50000 ![] bcast_S_S50000 (constant S_ .f32 0x3F800000#32))
      (maximumf (degree dst) (broadcastInDim S50000 ![] bcast_S_S50000 (constant S_ .f32 0x3F800000#32))))
    (broadcastInDim S50000 ![] bcast_S_S50000 (id (constant S_ .f32 0x00000000#32)))

/-- An index below zero counts from the end: `i + 50000` where `i < 0`. -/
def wrapIdx (idx : Vec F S800000 .i32) : Vec F S800000x1 .i32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32)))
      idx)

/-- Which wrapped indices are in range: `0 ≤ i ≤ 49999`. -/
def inRange (idx : Vec F S800000 .i32) : Vec F S800000 .i1 :=
  Host.reduce IntOp.andi
    (andi (cmpi .sge (wrapIdx idx) (broadcastInDim S800000x1 ![] bcast_S_S800000x1 (constantI S_ 32 0#32)))
      (cmpi .sle (wrapIdx idx)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of `feat` at the indices `idx`, one row per edge; a row out of range is the fill word throughout. -/
def takeRows (feat : FVec F S50000x128 .f32) (idx : Vec F S800000 .i32) : FVec F S800000x128 .f32 :=
  select (broadcastInDim S800000x128 ![0] bcast_S800000_S800000x128_0 (inRange idx))
    (Host.gather gather_S50000x128_S800000x1_S800000x128_1_0_n_n_0_1_1128 feat (wrapIdx idx))
    (broadcastInDim S800000x128 ![] bcast_S_S800000x128 (constant S_ .f32 0x7FC00000#32))

/-- The neighbour means of `feat`: its rows at the edges' sources, added up at the edges' destinations, each node's
    row multiplied by the node's inverse degree `dinv`. -/
def aggWith (feat : FVec F S50000x128 .f32) (src dst : Vec F S800000 .i32) (dinv : FVec F S50000 .f32) :
    FVec F S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (takeRows feat src))
    (broadcastInDim S50000x128 ![0, 1] bcast_S50000x1_S50000x128_0_1
      (broadcastInDim S50000x1 ![0] bcast_S50000_S50000x1_0 dinv))

/-- The neighbour means over the edge list `ei`. -/
def agg (ei : Vec F S2x800000 .i32) (feat : FVec F S50000x128 .f32) : FVec F S50000x128 .f32 :=
  aggWith feat (srcIdx ei) (dstIdx ei) (degInv (dstIdx ei))

end Cert.KernelIdeal.Chain

end
-- ==== Proof.KerHost.lean ====
/-
  What the kernel program's host operations leave in the buffers its two regions read.

  Before the first region the host has computed the neighbour means of the input features; between the regions it
  computes, by the same operations, the neighbour means of the first region's result. The edge list's two rows and
  the inverse degrees are computed once, before the first region, and read again between the regions: no region and
  no later host operation writes them.
-/
import proofs.«137018_j9998683865369_1_alg».proof.Proof.Gen.KernelIdeal.Frame
import proofs.«137018_j9998683865369_1_alg».proof.Proof.KerChain
import Idealize.ShloMosaic.Lib.StableHlo.Run

set_option maxRecDepth 16384

noncomputable section

namespace Cert.KernelIdeal.Host

open Cert.KernelIdeal Cert.KernelIdeal.Gen Cert.KernelIdeal.Chain
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

attribute [local irreducible] Host.gather Host.scatterAdd Host.reduce in
/-- The edges' sources, as the first host stretch leaves them. -/
theorem after0_src (V : Valuation τ sig (Elt F)) :
    after (hostOps0 (F := F)) V (Proc.devRef .tc main_v1) = srcIdx (V (Proc.devRef .tc main_arg1)) := by
  after_results_simp
  rfl

attribute [local irreducible] Host.gather Host.scatterAdd Host.reduce in
/-- The edges' destinations, as the first host stretch leaves them. -/
theorem after0_dst (V : Valuation τ sig (Elt F)) :
    after (hostOps0 (F := F)) V (Proc.devRef .tc main_v3) = dstIdx (V (Proc.devRef .tc main_arg1)) := by
  after_results_simp
  rfl

attribute [local irreducible] Host.gather Host.scatterAdd Host.reduce in
/-- The inverse degrees, after the first two stretches. -/
theorem after01_dinv (V : Valuation τ sig (Elt F)) :
    after (hostOps0_1 (F := F)) (after hostOps0 V) (Proc.devRef .tc main_v14) = degInv (dstIdx (V (Proc.devRef .tc main_arg1))) := by
  after_results_simp
  rfl

attribute [local irreducible] Host.gather Host.scatterAdd Host.reduce in
/-- The neighbour means of the features in `main_arg0`, from the sources, destinations and inverse degrees in place. -/
theorem after23_mean (V : Valuation τ sig (Elt F)) :
    after (hostOps0_3 (F := F)) (after hostOps0_2 V) (Proc.devRef .tc main_v21)
      = aggWith (V (Proc.devRef .tc main_arg0)) (V (Proc.devRef .tc main_v1)) (V (Proc.devRef .tc main_v3)) (V (Proc.devRef .tc main_v14)) := by
  after_results_simp
  rfl

/-- The inverse-degree stretch (three operations) writes neither the sources nor the destinations nor an argument. -/
theorem keep1_src (W : Valuation τ sig (Elt F)) :
    after (hostOps0_1 (F := F)) W (Proc.devRef .tc main_v1) = W (Proc.devRef .tc main_v1) := by
  after_results_simp
theorem keep1_dst (W : Valuation τ sig (Elt F)) :
    after (hostOps0_1 (F := F)) W (Proc.devRef .tc main_v3) = W (Proc.devRef .tc main_v3) := by
  after_results_simp

/-- The gather and scatter stretches write neither the sources nor the destinations nor the inverse degrees. -/
theorem keep23_src (W : Valuation τ sig (Elt F)) :
    after (hostOps0_3 (F := F)) (after hostOps0_2 W) (Proc.devRef .tc main_v1) = W (Proc.devRef .tc main_v1) := by
  after_results_simp
theorem keep23_dst (W : Valuation τ sig (Elt F)) :
    after (hostOps0_3 (F := F)) (after hostOps0_2 W) (Proc.devRef .tc main_v3) = W (Proc.devRef .tc main_v3) := by
  after_results_simp
theorem keep23_dinv (W : Valuation τ sig (Elt F)) :
    after (hostOps0_3 (F := F)) (after hostOps0_2 W) (Proc.devRef .tc main_v14) = W (Proc.devRef .tc main_v14) := by
  after_results_simp

/-- No host operation before the first region writes an argument. -/
theorem after0123_arg0 (V : Valuation τ sig (Elt F)) :
    after (hostOps0_3 (F := F)) (after hostOps0_2 (after hostOps0_1 (after hostOps0 V))) (Proc.devRef .tc main_arg0)
      = V (Proc.devRef .tc main_arg0) := by
  after_results_simp
theorem after0123_arg2 (V : Valuation τ sig (Elt F)) :
    after (hostOps0_3 (F := F)) (after hostOps0_2 (after hostOps0_1 (after hostOps0 V))) (Proc.devRef .tc main_arg2)
      = V (Proc.devRef .tc main_arg2) := by
  after_results_simp
theorem after0123_arg3 (V : Valuation τ sig (Elt F)) :
    after (hostOps0_3 (F := F)) (after hostOps0_2 (after hostOps0_1 (after hostOps0 V))) (Proc.devRef .tc main_arg3)
      = V (Proc.devRef .tc main_arg3) := by
  after_results_simp
theorem after0123_arg4 (V : Valuation τ sig (Elt F)) :
    after (hostOps0_3 (F := F)) (after hostOps0_2 (after hostOps0_1 (after hostOps0 V))) (Proc.devRef .tc main_arg4)
      = V (Proc.devRef .tc main_arg4) := by
  after_results_simp
theorem after0123_arg5 (V : Valuation τ sig (Elt F)) :
    after (hostOps0_3 (F := F)) (after hostOps0_2 (after hostOps0_1 (after hostOps0 V))) (Proc.devRef .tc main_arg5)
      = V (Proc.devRef .tc main_arg5) := by
  after_results_simp
theorem after0123_arg6 (V : Valuation τ sig (Elt F)) :
    after (hostOps0_3 (F := F)) (after hostOps0_2 (after hostOps0_1 (after hostOps0 V))) (Proc.devRef .tc main_arg6)
      = V (Proc.devRef .tc main_arg6) := by
  after_results_simp
theorem after0123_arg7 (V : Valuation τ sig (Elt F)) :
    after (hostOps0_3 (F := F)) (after hostOps0_2 (after hostOps0_1 (after hostOps0 V))) (Proc.devRef .tc main_arg7)
      = V (Proc.devRef .tc main_arg7) := by
  after_results_simp
/-- The first two stretches do not write the input features. -/
theorem after01_arg0 (V : Valuation τ sig (Elt F)) :
    after (hostOps0_1 (F := F)) (after hostOps0 V) (Proc.devRef .tc main_arg0) = V (Proc.devRef .tc main_arg0) := by
  after_results_simp

/-- After all four stretches before the first region the sources, the destinations and the inverse degrees are as the
    first two stretches left them. -/
theorem after0123_src (V : Valuation τ sig (Elt F)) :
    after (hostOps0_3 (F := F)) (after hostOps0_2 (after hostOps0_1 (after hostOps0 V))) (Proc.devRef .tc main_v1)
      = srcIdx (V (Proc.devRef .tc main_arg1)) :=
  (keep23_src _).trans ((keep1_src _).trans (after0_src V))
theorem after0123_dst (V : Valuation τ sig (Elt F)) :
    after (hostOps0_3 (F := F)) (after hostOps0_2 (after hostOps0_1 (after hostOps0 V))) (Proc.devRef .tc main_v3)
      = dstIdx (V (Proc.devRef .tc main_arg1)) :=
  (keep23_dst _).trans ((keep1_dst _).trans (after0_dst V))
theorem after0123_dinv (V : Valuation τ sig (Elt F)) :
    after (hostOps0_3 (F := F)) (after hostOps0_2 (after hostOps0_1 (after hostOps0 V))) (Proc.devRef .tc main_v14)
      = degInv (dstIdx (V (Proc.devRef .tc main_arg1))) :=
  (keep23_dinv _).trans (after01_dinv V)

/-- The neighbour means of the input features, as the first region finds them: the means' stretch applied to the
    features as launched and to the sources, destinations and inverse degrees the first two stretches computed. -/
theorem after0123_mean (V : Valuation τ sig (Elt F)) :
    after (hostOps0_3 (F := F)) (after hostOps0_2 (after hostOps0_1 (after hostOps0 V))) (Proc.devRef .tc main_v21)
      = agg (V (Proc.devRef .tc main_arg1)) (V (Proc.devRef .tc main_arg0)) := by
  refine (after23_mean (after hostOps0_1 (after hostOps0 V))).trans ?_
  rw [after01_arg0 V, (keep1_src (after hostOps0 V)).trans (after0_src V), (keep1_dst (after hostOps0 V)).trans (after0_dst V),
    after01_dinv V]
  rfl

/-! ## Between the regions -/

attribute [local irreducible] Host.gather Host.scatterAdd Host.reduce in
/-- The neighbour means of the first region's result, from the sources, destinations and inverse degrees in place. -/
theorem after45_mean (V : Valuation τ sig (Elt F)) :
    after (hostOps1_1 (F := F)) (after hostOps1 V) (Proc.devRef .tc main_v29)
      = aggWith (V (Proc.devRef .tc main_v22)) (V (Proc.devRef .tc main_v1)) (V (Proc.devRef .tc main_v3)) (V (Proc.devRef .tc main_v14)) := by
  after_results_simp
  rfl

/-- The host operations between the regions write neither the first region's result nor an argument. -/
theorem after45_hidden (V : Valuation τ sig (Elt F)) :
    after (hostOps1_1 (F := F)) (after hostOps1 V) (Proc.devRef .tc main_v22) = V (Proc.devRef .tc main_v22) := by
  after_results_simp
theorem after45_arg5 (V : Valuation τ sig (Elt F)) :
    after (hostOps1_1 (F := F)) (after hostOps1 V) (Proc.devRef .tc main_arg5) = V (Proc.devRef .tc main_arg5) := by
  after_results_simp
theorem after45_arg6 (V : Valuation τ sig (Elt F)) :
    after (hostOps1_1 (F := F)) (after hostOps1 V) (Proc.devRef .tc main_arg6) = V (Proc.devRef .tc main_arg6) := by
  after_results_simp
theorem after45_arg7 (V : Valuation τ sig (Elt F)) :
    after (hostOps1_1 (F := F)) (after hostOps1 V) (Proc.devRef .tc main_arg7) = V (Proc.devRef .tc main_arg7) := by
  after_results_simp

/-! ## At the boundaries the regions are entered from -/

/-- The first region's entry: the neighbour means of the features as launched, and the arguments as launched. -/
theorem W4_mean (c : Dev nD) :
    W4 m ρ c (Proc.devRef .tc main_v21) = agg (m ((c : Thread nD τ).loc main_arg1)) (m ((c : Thread nD τ).loc main_arg0)) :=
  after0123_mean (W0 m ρ c)
theorem W4_arg0 (c : Dev nD) : W4 m ρ c (Proc.devRef .tc main_arg0) = m ((c : Thread nD τ).loc main_arg0) := after0123_arg0 (W0 m ρ c)
theorem W4_arg2 (c : Dev nD) : W4 m ρ c (Proc.devRef .tc main_arg2) = m ((c : Thread nD τ).loc main_arg2) := after0123_arg2 (W0 m ρ c)
theorem W4_arg3 (c : Dev nD) : W4 m ρ c (Proc.devRef .tc main_arg3) = m ((c : Thread nD τ).loc main_arg3) := after0123_arg3 (W0 m ρ c)
theorem W4_arg4 (c : Dev nD) : W4 m ρ c (Proc.devRef .tc main_arg4) = m ((c : Thread nD τ).loc main_arg4) := after0123_arg4 (W0 m ρ c)

/-- The second region's entry: the neighbour means of the first region's result (the first region writes none of the
    sources, destinations, inverse degrees), that result itself, and the arguments as launched. -/
theorem W7_mean (c : Dev nD) :
    W7 m ρ c (Proc.devRef .tc main_v29)
      = agg (m ((c : Thread nD τ).loc main_arg1)) (W5 m ρ c (Proc.devRef .tc main_v22)) := by
  refine (after45_mean (W5 m ρ c)).trans ?_
  rw [(W5_of_ne m ρ c main_v1 (by decide)).trans (after0123_src (W0 m ρ c)),
    (W5_of_ne m ρ c main_v3 (by decide)).trans (after0123_dst (W0 m ρ c)),
    (W5_of_ne m ρ c main_v14 (by decide)).trans (after0123_dinv (W0 m ρ c))]
  rfl
theorem W7_hidden (c : Dev nD) : W7 m ρ c (Proc.devRef .tc main_v22) = W5 m ρ c (Proc.devRef .tc main_v22) :=
  after45_hidden (W5 m ρ c)
theorem W7_arg5 (c : Dev nD) : W7 m ρ c (Proc.devRef .tc main_arg5) = m ((c : Thread nD τ).loc main_arg5) :=
  (after45_arg5 (W5 m ρ c)).trans ((W5_of_ne m ρ c main_arg5 (by decide)).trans (after0123_arg5 (W0 m ρ c)))
theorem W7_arg6 (c : Dev nD) : W7 m ρ c (Proc.devRef .tc main_arg6) = m ((c : Thread nD τ).loc main_arg6) :=
  (after45_arg6 (W5 m ρ c)).trans ((W5_of_ne m ρ c main_arg6 (by decide)).trans (after0123_arg6 (W0 m ρ c)))
theorem W7_arg7 (c : Dev nD) : W7 m ρ c (Proc.devRef .tc main_arg7) = m ((c : Thread nD τ).loc main_arg7) :=
  (after45_arg7 (W5 m ρ c)).trans ((W5_of_ne m ρ c main_arg7 (by decide)).trans (after0123_arg7 (W0 m ρ c)))

end Cert.KernelIdeal.Host

end
-- ==== Proof.Spec.lean ====
/-
  A two-layer mean-aggregation graph convolution, written as a function of its arguments.

  One layer sends node features `x` (one row per node) and the row-wise neighbour means `mean` to
  `mean · W_l + b + x · W_r`: at node `p` and output column `q` that is
  `(∑ k, mean (p, k) · W_l (k, q)) + b q + ∑ k, x (p, k) · W_r (k, q)`, the two sums over the input columns.
  The first layer is followed by `max (·, 0)`; the second is not. The neighbour means of the second layer are taken
  of the first layer's result, by the same aggregation `A` (gather the source rows of the edges, add them up at the
  destination rows, divide by the in-degree): the network is stated over `A` as an arbitrary function, because both
  programs compute it by the same host operations and nothing here looks inside it.
-/
import Idealize.ShloMosaic.PureOps.Ideal.Laws
import Idealize.ShloMosaic.Lib.ValueIdx

noncomputable section

namespace Cert.Sage

open Idealize.ShloMosaic Idealize.ShloMosaic.ValueIdx

/-- One layer at node `p`, output column `q`. -/
def layerAt {M K N : ℕ} (mean x : FVec Ideal ⟨2, ![M, K]⟩ .f32) (Wl : FVec Ideal ⟨2, ![K, N]⟩ .f32)
    (b : FVec Ideal ⟨1, ![N]⟩ .f32) (Wr : FVec Ideal ⟨2, ![K, N]⟩ .f32) (p : Fin M) (q : Fin N) : Ideal .f32 :=
  (∑ k : Fin K, mean (ix2 p k) * Wl (ix2 k q)) + b (ix1 q) + ∑ k : Fin K, x (ix2 p k) * Wr (ix2 k q)

/-- One layer, all nodes and columns. -/
def layer {M K N : ℕ} (mean x : FVec Ideal ⟨2, ![M, K]⟩ .f32) (Wl : FVec Ideal ⟨2, ![K, N]⟩ .f32)
    (b : FVec Ideal ⟨1, ![N]⟩ .f32) (Wr : FVec Ideal ⟨2, ![K, N]⟩ .f32) : FVec Ideal ⟨2, ![M, N]⟩ .f32 :=
  fun i => layerAt mean x Wl b Wr (i 0) (i 1)

/-- One layer followed by the positive part (the zero is the float word `0x00000000`, the real number 0). -/
def layerRelu {M K N : ℕ} (mean x : FVec Ideal ⟨2, ![M, K]⟩ .f32) (Wl : FVec Ideal ⟨2, ![K, N]⟩ .f32)
    (b : FVec Ideal ⟨1, ![N]⟩ .f32) (Wr : FVec Ideal ⟨2, ![K, N]⟩ .f32) : FVec Ideal ⟨2, ![M, N]⟩ .f32 :=
  fun i => max (layerAt mean x Wl b Wr (i 0) (i 1)) (Ideal.ofBits .f32 0x00000000#32)

theorem layer_apply {M K N : ℕ} (mean x : FVec Ideal ⟨2, ![M, K]⟩ .f32) (Wl : FVec Ideal ⟨2, ![K, N]⟩ .f32)
    (b : FVec Ideal ⟨1, ![N]⟩ .f32) (Wr : FVec Ideal ⟨2, ![K, N]⟩ .f32) (p : Fin M) (q : Fin N) :
    layer mean x Wl b Wr (ix2 p q) = layerAt mean x Wl b Wr p q := rfl

theorem layerRelu_apply {M K N : ℕ} (mean x : FVec Ideal ⟨2, ![M, K]⟩ .f32) (Wl : FVec Ideal ⟨2, ![K, N]⟩ .f32)
    (b : FVec Ideal ⟨1, ![N]⟩ .f32) (Wr : FVec Ideal ⟨2, ![K, N]⟩ .f32) (p : Fin M) (q : Fin N) :
    layerRelu mean x Wl b Wr (ix2 p q) = max (layerAt mean x Wl b Wr p q) (Ideal.ofBits .f32 0x00000000#32) := rfl

/-- The hidden features: the first layer of the neighbour means `A x` and of `x`, positive part taken. -/
def hidden (A : FVec Ideal ⟨2, ![50000, 128]⟩ .f32 → FVec Ideal ⟨2, ![50000, 128]⟩ .f32)
    (x : FVec Ideal ⟨2, ![50000, 128]⟩ .f32) (W1l : FVec Ideal ⟨2, ![128, 128]⟩ .f32) (b1 : FVec Ideal ⟨1, ![128]⟩ .f32)
    (W1r : FVec Ideal ⟨2, ![128, 128]⟩ .f32) : FVec Ideal ⟨2, ![50000, 128]⟩ .f32 :=
  layerRelu (A x) x W1l b1 W1r

/-- The network's result: the second layer of the hidden features' neighbour means and of the hidden features. -/
def net (A : FVec Ideal ⟨2, ![50000, 128]⟩ .f32 → FVec Ideal ⟨2, ![50000, 128]⟩ .f32)
    (x : FVec Ideal ⟨2, ![50000, 128]⟩ .f32) (W1l : FVec Ideal ⟨2, ![128, 128]⟩ .f32) (b1 : FVec Ideal ⟨1, ![128]⟩ .f32)
    (W1r : FVec Ideal ⟨2, ![128, 128]⟩ .f32) (W2l : FVec Ideal ⟨2, ![128, 64]⟩ .f32) (b2 : FVec Ideal ⟨1, ![64]⟩ .f32)
    (W2r : FVec Ideal ⟨2, ![128, 64]⟩ .f32) : FVec Ideal ⟨2, ![50000, 64]⟩ .f32 :=
  layer (A (hidden A x W1l b1 W1r)) (hidden A x W1l b1 W1r) W2l b2 W2r

end Cert.Sage

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KerRegion0.lean ====
/-
  The first layer's region: what it leaves in its output array, at the ideal values.

  The region runs over ten grid points. Point `t` takes rows `5000 t … 5000 t + 4999` of the neighbour means and of the
  node features, the whole 128×128 matrices `W_l`, `W_r` and the 128 bias, and stores into the same rows of the output
  `max (mean · W_l + b + x · W_r, 0)`. At the ideal values a block times a weight matrix is, entry by entry, the sum
  over the shared axis; narrowing to bf16 changes nothing; and the bias row repeated down the block holds entry `q` in
  column `q`. So entry `(p, q)` of the stored block is the layer's entry at node `5000 t + p`, column `q`, which depends
  on that node's two rows only. The ten row blocks tile the 50000 nodes, so the output array ends holding the first
  layer, positive part taken, of the whole arrays.
-/
import proofs.«137018_j9998683865369_1_alg».proof.Proof.Gen.KernelIdeal.Frame
import proofs.«137018_j9998683865369_1_alg».proof.Proof.Spec
import proofs.«137018_j9998683865369_1_alg».proof.Proof.LibDot
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## One entry of what the body stores -/

/-- The bias enters as a 128-vector, is viewed as a single row and repeated down the 5000 rows of the block: at row `p`,
    column `q` the repeated array holds the vector's entry `q`, whatever the row. (The repeat reads row 0 of the
    one-row array; the one-row view keeps the row-major position, which for `(0, q)` is `q`.) -/
theorem bias_apply (b : Vec Ideal S128 .f32) (h₁ : S128.ShapeCasts S1x128) (h₂ : S1x128.Broadcasts S5000x128)
    (p : Fin 5000) (q : Fin 128) :
    broadcastTo S5000x128 (shapeCast S1x128 b h₁) h₂ (ix2 p q) = b (ix1 q) := by
  refine (broadcastTo_apply (shapeCast S1x128 b h₁) h₂ (ix2 p q) (ix2 (0 : Fin 1) q) fun a => ?_).trans ?_
  · match a with
    | ⟨0, _⟩ => rfl
    | ⟨1, _⟩ => rfl
  · refine shapeCast_apply b h₁ (ix2 (0 : Fin 1) q) (ix1 q) ?_
    rw [Shape.rowMajor_val_two, Shape.rowMajor_val_one]
    show q.val = 0 * 128 + q.val
    omega

/-- A 5000×128 block times a 128×128 weight matrix, both narrowed to bf16 first (no change at the ideal values) and
    accumulated onto zero: entry `(p, q)` is the sum over the 128 input columns of `l (p, k) · r (k, q)`. -/
theorem prod_apply (l : Vec Ideal S5000x128 .f32) (r : Vec Ideal S128x128 .f32) (h : FTy.bits .bf16 < FTy.bits .f32)
    (p : Fin 5000) (q : Fin 128) :
    matmul dot_S5000x128_S128x128_S5000x128_1_0_0_1_n_n none (truncf .bf16 l h) (truncf .bf16 r h)
        (constant (F := Ideal) S5000x128 .f32 0x00000000#32) (ix2 p q)
      = ∑ k : Fin 128, l (ix2 p k) * r (ix2 k q) :=
  Cert.GNN.matmul_plain_zero_apply (M := 5000) (K := 128) (N := 128) none (truncf .bf16 l h) (truncf .bf16 r h) p q

/-- The stored value at row `p`, column `q` of the block: the layer's entry there — the mean block against `W_l`, plus
    the bias, plus the feature block against `W_r` — with its positive part taken. -/
theorem pay_apply (x0 x1 : Vec Ideal S5000x128 .f32) (wl wr : Vec Ideal S128x128 .f32) (b : Vec Ideal S128 .f32)
    (p : Fin 5000) (q : Fin 128) :
    k0_pay1 (F := Ideal) x0 x1 wl wr b (ix2 p q)
      = max (Cert.Sage.layerAt x0 x1 wl b wr p q) (Ideal.ofBits .f32 0x00000000#32) := by
  unfold k0_pay1
  refine congrArg (fun z => max z (Ideal.ofBits .f32 0x00000000#32)) ?_
  unfold Cert.Sage.layerAt
  refine congrArg₂ (· + ·) (congrArg₂ (· + ·) ?_ ?_) ?_
  · rw [shapeCast_self]
    exact prod_apply x0 wl _ p q
  · exact bias_apply b _ _ p q
  · exact prod_apply x1 wr _ p q

/-! ## Where a block sits in its array -/

theorem hz : (![0, 0] : Fin 2 → Nat) = fun _ => 0 := funext fun a => by fin_cases a <;> rfl
theorem hz1 : (![0] : Fin 1 → Nat) = fun _ => 0 := funext fun a => by fin_cases a; rfl

/-- The ten grid points are numbered `0 … 9`. -/
theorem point_lt (t : Fin cfg0.N) : t.val < 10 := lt_of_lt_of_eq t.isLt N_0

/-- Grid point `t` works on rows `5000 t … 5000 t + 4999` of the 50000 nodes: row `p` of its block is this row. -/
def row (t : Fin cfg0.N) (p : Fin 5000) : Fin 50000 :=
  ⟨t.val * 5000 + p.val, by have := point_lt t; have := p.isLt; omega⟩

/-- The block index of each window at grid point `t`: the two node-indexed inputs and the output move down one block of
    rows per point and stay in column block 0; the two weight matrices and the bias are one block each, always block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-mean block at point `t` holds rows `5000 t + p` of the neighbour means. -/
theorem mean_blk (c : Dev nD) (t : Fin cfg0.N) (p : Fin 5000) (k : Fin 128) :
    (iblk0 V c 0 t : Vec Ideal S5000x128 .f32) (ix2 p k)
      = (V c main_v21 : S50000x128.Idx → Elt Ideal .f32) (ix2 (row t p) k) := by
  obtain ⟨e0, e1, -⟩ := idx_facts t
  show V c main_v21 (((cfg0.win 0).blk t).view.emb (ix2 p k)) = V c main_v21 (ix2 (row t p) k)
  refine congrArg (V c main_v21) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The feature block at point `t` holds rows `5000 t + p` of the node features. -/
theorem x_blk (c : Dev nD) (t : Fin cfg0.N) (p : Fin 5000) (k : Fin 128) :
    (iblk0 V c 1 t : Vec Ideal S5000x128 .f32) (ix2 p k)
      = (V c main_arg0 : S50000x128.Idx → Elt Ideal .f32) (ix2 (row t p) k) := by
  obtain ⟨-, -, e0, e1, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The block of `W_l` is the whole matrix at every point. -/
theorem wl_blk (c : Dev nD) (t : Fin cfg0.N) (k : Fin 128) (q : Fin 128) :
    (iblk0 V c 2 t : Vec Ideal S128x128 .f32) (ix2 k q)
      = (V c main_arg2 : S128x128.Idx → Elt Ideal .f32) (ix2 k q) := by
  obtain ⟨-, -, -, -, e0, e1, -⟩ := idx_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The block of the bias is the whole vector at every point. -/
theorem b_blk (c : Dev nD) (t : Fin cfg0.N) (q : Fin 128) :
    (iblk0 V c 3 t : Vec Ideal S128 .f32) (ix1 q) = (V c main_arg3 : S128.Idx → Elt Ideal .f32) (ix1 q) := by
  obtain ⟨-, -, -, -, -, -, e0, -⟩ := idx_facts t
  show V c main_arg3 (((cfg0.win 3).blk t).view.emb (ix1 q)) = V c main_arg3 (ix1 q)
  refine congrArg (V c main_arg3) (funext fun a => Fin.ext ?_)
  match a with
  | ⟨0, _⟩ => show win0_3.index t (0 : Fin 1) * 128 + 1 * q.val = q.val; rw [e0]; omega

/-- The block of `W_r` is the whole matrix at every point. -/
theorem wr_blk (c : Dev nD) (t : Fin cfg0.N) (k : Fin 128) (q : Fin 128) :
    (iblk0 V c 4 t : Vec Ideal S128x128 .f32) (ix2 k q)
      = (V c main_arg4 : S128x128.Idx → Elt Ideal .f32) (ix2 k q) := by
  obtain ⟨-, -, -, -, -, -, -, e0, e1, -⟩ := idx_facts t
  show V c main_arg4 (((cfg0.win 4).blk t).view.emb (ix2 k q)) = V c main_arg4 (ix2 k q)
  refine congrArg (V c main_arg4) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry `(p, q)` of the output block at point `t` is entry `(5000 t + p, q)` of the output array. -/
theorem out_emb (t : Fin cfg0.N) (p : Fin 5000) (q : Fin 128) :
    (((cfg0.win 5).blk t).view.emb (ix2 p q) : S50000x128.Idx) = ix2 (row t p) q := by
  obtain ⟨-, -, -, -, -, -, -, -, -, e0, e1⟩ := idx_facts t
  refine funext fun a => Fin.ext ?_
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-! ## What one grid point writes back -/

/-- The value the body stores at `(p, q)` from the blocks of point `t` is the first layer's entry at node `5000 t + p`,
    column `q`: row `p` of each node-indexed block is that node's row, and the weights and the bias are read whole. -/
theorem blk_entry (c : Dev nD) (t : Fin cfg0.N) (p : Fin 5000) (q : Fin 128) :
    k0_pay1 (F := Ideal) (iblk0 V c 0 t) (iblk0 V c 1 t) (iblk0 V c 2 t) (iblk0 V c 4 t) (iblk0 V c 3 t) (ix2 p q)
      = Cert.Sage.layerRelu (V c main_v21) (V c main_arg0) (V c main_arg2) (V c main_arg3) (V c main_arg4)
          (ix2 (row t p) q) := by
  refine (pay_apply (iblk0 V c 0 t) (iblk0 V c 1 t) (iblk0 V c 2 t) (iblk0 V c 4 t) (iblk0 V c 3 t) p q).trans ?_
  refine congrArg (fun z => max z (Ideal.ofBits .f32 0x00000000#32)) ?_
  unfold Cert.Sage.layerAt
  refine congrArg₂ (· + ·) (congrArg₂ (· + ·) (Finset.sum_congr rfl fun k _ => ?_) ?_) (Finset.sum_congr rfl fun k _ => ?_)
  · exact congrArg₂ (· * ·) (mean_blk V c t p k) (wl_blk V c t k q)
  · exact b_blk V c t q
  · exact congrArg₂ (· * ·) (x_blk V c t p k) (wr_blk V c t k q)

/-- What point `t` writes back is block `t` of the first layer's result. -/
theorem flushed_eq (c : Dev nD) (t : Fin cfg0.N) :
    (dat0 (F := Ideal) V c).flushed 5 t = ((cfg0.win 5).blk t).view.read (Elt Ideal)
      (Cert.Sage.layerRelu (V c main_v21) (V c main_arg0) (V c main_arg2) (V c main_arg3) (V c main_arg4)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S128) hz1]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
      = Cert.Sage.layerRelu (V c main_v21) (V c main_arg0) (V c main_arg2) (V c main_arg3) (V c main_arg4)
          (((cfg0.win 5).blk t).view.emb (ix2 p q))
  rw [out_emb t p q]
  exact blk_entry V c t p q

/-! ## The blocks cover the array -/

/-- A node row and column are in point `t`'s output block iff each lies in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- Every entry of the output array is written back by some point: node row `r` by point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := lt_of_lt_of_eq (by omega : (i 0).val / 5000 < 10) N_0.symm
  obtain ⟨-, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-! ## The output array after the region -/

theorem arr0 (c : Dev nD) :
    (dat0 (F := Ideal) V c).arrAt 5 cfg0.N
      = Cert.Sage.layerRelu (V c main_v21) (V c main_arg0) (V c main_arg2) (V c main_arg3) (V c main_arg4) :=
  (dat0 (F := Ideal) V c).arrAt_eq_of_cover 5
    (Cert.Sage.layerRelu (V c main_v21) (V c main_arg0) (V c main_arg2) (V c main_arg3) (V c main_arg4))
    (fun t _ => flushed_eq V c t) cover

end Cert.KernelIdeal.Region0

end
-- ==== Proof.KerRegion1.lean ====
/-
  The second layer's region: what it leaves in its output array, at the ideal values.

  Ten grid points again. Point `t` takes rows `5000 t … 5000 t + 4999` of the hidden features and of their neighbour
  means (both 128 columns wide), the whole 128×64 matrices `W_l`, `W_r` and the 64 bias, and stores into the same rows
  of the 50000×64 output `mean · W_l + b + h · W_r`, with no positive part. Entry `(p, q)` of the stored block is the
  sum over the 128 hidden columns of `mean (p, k) · W_l (k, q)`, plus `b q`, plus the like sum for `h` and `W_r`: the
  layer's entry at node `5000 t + p`, column `q`. The ten row blocks tile the nodes, so the output array ends holding
  the second layer of the whole arrays.
-/
import proofs.«137018_j9998683865369_1_alg».proof.Proof.Gen.KernelIdeal.Frame
import proofs.«137018_j9998683865369_1_alg».proof.Proof.Spec
import proofs.«137018_j9998683865369_1_alg».proof.Proof.LibDot
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## One entry of what the body stores

The second layer maps 128 hidden features to 64 output columns and takes no positive part: the stored value is the
layer's entry itself. -/

/-- The second layer's bias, a 64-vector, viewed as one row and repeated down the 5000 rows of the block, holds at row
    `p`, column `q` the vector's entry `q`: the repeat reads the single row, and in the one-row view the entry at
    `(0, q)` is the one at row-major position `q` of the vector. -/
theorem bias_apply (b : Vec Ideal S64 .f32) (h₁ : S64.ShapeCasts S1x64) (h₂ : S1x64.Broadcasts S5000x64)
    (p : Fin 5000) (q : Fin 64) :
    broadcastTo S5000x64 (shapeCast S1x64 b h₁) h₂ (ix2 p q) = b (ix1 q) := by
  refine (broadcastTo_apply (shapeCast S1x64 b h₁) h₂ (ix2 p q) (ix2 (0 : Fin 1) q) fun a => ?_).trans ?_
  · match a with
    | ⟨0, _⟩ => rfl
    | ⟨1, _⟩ => rfl
  · refine shapeCast_apply b h₁ (ix2 (0 : Fin 1) q) (ix1 q) ?_
    rw [Shape.rowMajor_val_two, Shape.rowMajor_val_one]
    show q.val = 0 * 64 + q.val
    omega

/-- A 5000×128 block times a 128×64 weight matrix (both narrowed to bf16, which changes nothing at the ideal values),
    accumulated onto zero: entry `(p, q)` is the sum over the 128 hidden columns of `l (p, k) · r (k, q)`. -/
theorem prod_apply (l : Vec Ideal S5000x128 .f32) (r : Vec Ideal S128x64 .f32) (h : FTy.bits .bf16 < FTy.bits .f32)
    (p : Fin 5000) (q : Fin 64) :
    matmul dot_S5000x128_S128x64_S5000x64_1_0_0_1_n_n none (truncf .bf16 l h) (truncf .bf16 r h)
        (constant (F := Ideal) S5000x64 .f32 0x00000000#32) (ix2 p q)
      = ∑ k : Fin 128, l (ix2 p k) * r (ix2 k q) :=
  Cert.GNN.matmul_plain_zero_apply (M := 5000) (K := 128) (N := 64) none (truncf .bf16 l h) (truncf .bf16 r h) p q

/-- The stored value at row `p`, column `q`: the mean block against `W_l`, plus the bias, plus the hidden-feature block
    against `W_r` — the layer's entry, with nothing applied after it. -/
theorem pay_apply (x0 x1 : Vec Ideal S5000x128 .f32) (wl wr : Vec Ideal S128x64 .f32) (b : Vec Ideal S64 .f32)
    (p : Fin 5000) (q : Fin 64) :
    k1_pay1 (F := Ideal) x0 x1 wl wr b (ix2 p q) = Cert.Sage.layerAt x0 x1 wl b wr p q := by
  unfold k1_pay1
  unfold Cert.Sage.layerAt
  refine congrArg₂ (· + ·) (congrArg₂ (· + ·) ?_ ?_) ?_
  · rw [shapeCast_self]
    exact prod_apply x0 wl _ p q
  · exact bias_apply b _ _ p q
  · rw [shapeCast_self]
    exact prod_apply x1 wr _ p q

/-! ## Where a block sits in its array -/

theorem hz : (![0, 0] : Fin 2 → Nat) = fun _ => 0 := funext fun a => by fin_cases a <;> rfl
theorem hz1 : (![0] : Fin 1 → Nat) = fun _ => 0 := funext fun a => by fin_cases a; rfl

/-- The grid has ten points, `0 … 9`. -/
theorem point_lt (t : Fin cfg1.N) : t.val < 10 := lt_of_lt_of_eq t.isLt N_1

/-- Point `t` works on nodes `5000 t … 5000 t + 4999`: row `p` of its blocks is this node. -/
def row (t : Fin cfg1.N) (p : Fin 5000) : Fin 50000 :=
  ⟨t.val * 5000 + p.val, by have := point_lt t; have := p.isLt; omega⟩

/-- The block index of each window at point `t`: the means of the hidden features, the hidden features and the output
    advance one block of 5000 rows per point, in column block 0; the 128×64 weights and the 64 bias are single blocks. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of neighbour means (of the hidden features) at point `t` holds the rows of nodes `5000 t + p`. -/
theorem mean_blk (c : Dev nD) (t : Fin cfg1.N) (p : Fin 5000) (k : Fin 128) :
    (iblk1 V c 0 t : Vec Ideal S5000x128 .f32) (ix2 p k)
      = (V c main_v29 : S50000x128.Idx → Elt Ideal .f32) (ix2 (row t p) k) := by
  obtain ⟨e0, e1, -⟩ := idx_facts t
  show V c main_v29 (((cfg1.win 0).blk t).view.emb (ix2 p k)) = V c main_v29 (ix2 (row t p) k)
  refine congrArg (V c main_v29) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The block of hidden features at point `t` holds the rows of nodes `5000 t + p`. -/
theorem x_blk (c : Dev nD) (t : Fin cfg1.N) (p : Fin 5000) (k : Fin 128) :
    (iblk1 V c 1 t : Vec Ideal S5000x128 .f32) (ix2 p k)
      = (V c main_v22 : S50000x128.Idx → Elt Ideal .f32) (ix2 (row t p) k) := by
  obtain ⟨-, -, e0, e1, -⟩ := idx_facts t
  show V c main_v22 (((cfg1.win 1).blk t).view.emb (ix2 p k)) = V c main_v22 (ix2 (row t p) k)
  refine congrArg (V c main_v22) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- `W_l` of the second layer is read whole at every point. -/
theorem wl_blk (c : Dev nD) (t : Fin cfg1.N) (k : Fin 128) (q : Fin 64) :
    (iblk1 V c 2 t : Vec Ideal S128x64 .f32) (ix2 k q)
      = (V c main_arg5 : S128x64.Idx → Elt Ideal .f32) (ix2 k q) := by
  obtain ⟨-, -, -, -, e0, e1, -⟩ := idx_facts t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- The second layer's bias is read whole at every point. -/
theorem b_blk (c : Dev nD) (t : Fin cfg1.N) (q : Fin 64) :
    (iblk1 V c 3 t : Vec Ideal S64 .f32) (ix1 q) = (V c main_arg6 : S64.Idx → Elt Ideal .f32) (ix1 q) := by
  obtain ⟨-, -, -, -, -, -, e0, -⟩ := idx_facts t
  show V c main_arg6 (((cfg1.win 3).blk t).view.emb (ix1 q)) = V c main_arg6 (ix1 q)
  refine congrArg (V c main_arg6) (funext fun a => Fin.ext ?_)
  match a with
  | ⟨0, _⟩ => show win1_3.index t (0 : Fin 1) * 64 + 1 * q.val = q.val; rw [e0]; omega

/-- `W_r` of the second layer is read whole at every point. -/
theorem wr_blk (c : Dev nD) (t : Fin cfg1.N) (k : Fin 128) (q : Fin 64) :
    (iblk1 V c 4 t : Vec Ideal S128x64 .f32) (ix2 k q)
      = (V c main_arg7 : S128x64.Idx → Elt Ideal .f32) (ix2 k q) := by
  obtain ⟨-, -, -, -, -, -, -, e0, e1, -⟩ := idx_facts t
  show V c main_arg7 (((cfg1.win 4).blk t).view.emb (ix2 k q)) = V c main_arg7 (ix2 k q)
  refine congrArg (V c main_arg7) (funext fun a => Fin.ext ?_)
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- Entry `(p, q)` of the output block at point `t` is entry `(5000 t + p, q)` of the 50000×64 output. -/
theorem out_emb (t : Fin cfg1.N) (p : Fin 5000) (q : Fin 64) :
    (((cfg1.win 5).blk t).view.emb (ix2 p q) : S50000x64.Idx) = ix2 (row t p) q := by
  obtain ⟨-, -, -, -, -, -, -, -, -, e0, e1⟩ := idx_facts t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 64 + 1 * q.val = q.val; rw [e1]; omega

/-! ## What one grid point writes back -/

/-- The value stored at `(p, q)` from the blocks of point `t` is the second layer's entry at node `5000 t + p`, column
    `q`: each node-indexed block's row `p` is that node's row, and the weights and the bias are the whole arrays. -/
theorem blk_entry (c : Dev nD) (t : Fin cfg1.N) (p : Fin 5000) (q : Fin 64) :
    k1_pay1 (F := Ideal) (iblk1 V c 0 t) (iblk1 V c 1 t) (iblk1 V c 2 t) (iblk1 V c 4 t) (iblk1 V c 3 t) (ix2 p q)
      = Cert.Sage.layer (V c main_v29) (V c main_v22) (V c main_arg5) (V c main_arg6) (V c main_arg7)
          (ix2 (row t p) q) := by
  refine (pay_apply (iblk1 V c 0 t) (iblk1 V c 1 t) (iblk1 V c 2 t) (iblk1 V c 4 t) (iblk1 V c 3 t) p q).trans ?_
  show Cert.Sage.layerAt (iblk1 V c 0 t) (iblk1 V c 1 t) (iblk1 V c 2 t) (iblk1 V c 3 t) (iblk1 V c 4 t) p q
      = Cert.Sage.layerAt (V c main_v29) (V c main_v22) (V c main_arg5) (V c main_arg6) (V c main_arg7) (row t p) q
  unfold Cert.Sage.layerAt
  refine congrArg₂ (· + ·) (congrArg₂ (· + ·) (Finset.sum_congr rfl fun k _ => ?_) ?_) (Finset.sum_congr rfl fun k _ => ?_)
  · exact congrArg₂ (· * ·) (mean_blk V c t p k) (wl_blk V c t k q)
  · exact b_blk V c t q
  · exact congrArg₂ (· * ·) (x_blk V c t p k) (wr_blk V c t k q)

/-- What point `t` writes back is block `t` of the second layer's result. -/
theorem flushed_eq (c : Dev nD) (t : Fin cfg1.N) :
    (dat1 (F := Ideal) V c).flushed 5 t = ((cfg1.win 5).blk t).view.read (Elt Ideal)
      (Cert.Sage.layer (V c main_v29) (V c main_v22) (V c main_arg5) (V c main_arg6) (V c main_arg7)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x64) hz, View.ld_unit_zero (S := S64) hz1]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
      = Cert.Sage.layer (V c main_v29) (V c main_v22) (V c main_arg5) (V c main_arg6) (V c main_arg7)
          (((cfg1.win 5).blk t).view.emb (ix2 p q))
  rw [out_emb t p q]
  exact blk_entry V c t p q

/-! ## The blocks cover the array -/

/-- A node row and an output column are in point `t`'s block iff each lies in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v30).slice (win1_5.rect t)).set ↔ _
  rw [View.set_slice_whole, Rect.mem_set_unit]
  exact Iff.rfl

/-- Every entry of the 50000×64 output is written back by some point: node `r` by point `r / 5000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have ht : (i 0).val / 5000 < cfg1.N := lt_of_lt_of_eq (by omega : (i 0).val / 5000 < 10) N_1.symm
  obtain ⟨-, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e1]; omega

/-! ## The output array after the region -/

theorem arr1 (c : Dev nD) :
    (dat1 (F := Ideal) V c).arrAt 5 cfg1.N
      = Cert.Sage.layer (V c main_v29) (V c main_v22) (V c main_arg5) (V c main_arg6) (V c main_arg7) :=
  (dat1 (F := Ideal) V c).arrAt_eq_of_cover 5
    (Cert.Sage.layer (V c main_v29) (V c main_v22) (V c main_arg5) (V c main_arg6) (V c main_arg7))
    (fun t _ => flushed_eq V c t) cover

end Cert.KernelIdeal.Region1

end
-- ==== Proof.KerValue.lean ====
/-
  The kernel program's result, as a function of its arguments, at the ideal values.

  The second region leaves in the result array the second layer of its two feature inputs; the first of them is the
  neighbour means of the second, computed by the host between the regions; the second is what the first region left:
  the first layer, positive part taken, of the input features and of their neighbour means, which the host computed
  before it. Put together the result is the two-layer network of the arguments, over the aggregation the host applies.
-/
import proofs.«137018_j9998683865369_1_alg».proof.Proof.Gen.KernelIdeal.Frame
import proofs.«137018_j9998683865369_1_alg».proof.Proof.KerRun
import proofs.«137018_j9998683865369_1_alg».proof.Proof.KerHost
import proofs.«137018_j9998683865369_1_alg».proof.Proof.KerRegion0
import proofs.«137018_j9998683865369_1_alg».proof.Proof.KerRegion1
import proofs.«137018_j9998683865369_1_alg».proof.Proof.Spec

set_option maxRecDepth 16384

noncomputable section

namespace Cert.KernelIdeal.Net

open Cert.KernelIdeal Cert.KernelIdeal.Gen Cert.KernelIdeal.Chain Cert.KernelIdeal.Host
open Idealize.ShloMosaic Idealize.ShloMosaic.TcCoe Idealize.SL.Sem

variable (m : (ℓ : Loc nD τ sig) → Buf (Elt Ideal) ℓ) (ρ : Dev nD → PrngReg)

/-- What the first region leaves in its output array: the hidden features. -/
theorem hidden_eq (c : Dev nD) :
    W5 m ρ c (Proc.devRef .tc main_v22)
      = Cert.Sage.hidden (agg (m ((c : Thread nD τ).loc main_arg1))) (m ((c : Thread nD τ).loc main_arg0)) (m ((c : Thread nD τ).loc main_arg2)) (m ((c : Thread nD τ).loc main_arg3)) (m ((c : Thread nD τ).loc main_arg4)) := by
  refine (W5_arr m ρ c 5).trans ?_
  rw [Cert.KernelIdeal.Region0.arr0 (V4 m ρ) c]
  show Cert.Sage.layerRelu (W4 m ρ c (Proc.devRef .tc main_v21)) (W4 m ρ c (Proc.devRef .tc main_arg0))
    (W4 m ρ c (Proc.devRef .tc main_arg2)) (W4 m ρ c (Proc.devRef .tc main_arg3)) (W4 m ρ c (Proc.devRef .tc main_arg4)) = _
  rw [W4_mean, W4_arg0, W4_arg2, W4_arg3, W4_arg4]
  rfl

/-- What the second region leaves in the result array: the network's result. -/
theorem out_eq (c : Dev nD) :
    W8 m ρ c (Proc.devRef .tc main_v30)
      = Cert.Sage.net (agg (m ((c : Thread nD τ).loc main_arg1))) (m ((c : Thread nD τ).loc main_arg0)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W8_arr m ρ c 5).trans ?_
  rw [Cert.KernelIdeal.Region1.arr1 (V7 m ρ) c]
  show Cert.Sage.layer (W7 m ρ c (Proc.devRef .tc main_v29)) (W7 m ρ c (Proc.devRef .tc main_v22))
    (W7 m ρ c (Proc.devRef .tc main_arg5)) (W7 m ρ c (Proc.devRef .tc main_arg6)) (W7 m ρ c (Proc.devRef .tc main_arg7)) = _
  rw [W7_mean, W7_hidden, W7_arg5, W7_arg6, W7_arg7, hidden_eq]
  rfl

/-- Every weakly fair execution of the kernel program terminates with the result array at the network's result and the
    argument arrays as launched. -/
theorem run :
    θ_run defs (onTc (τ := τ) (main (F := Ideal))) ⟨m, fun _ => 0, ρ⟩ (fun r => ∀ c : Dev nD,
      r.2.mem ((c.tc : Thread nD τ).loc main_v30)
        = Cert.Sage.net (agg (m ((c : Thread nD τ).loc main_arg1))) (m ((c : Thread nD τ).loc main_arg0)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.Out.run_out m ρ)

end Cert.KernelIdeal.Net

end
-- ==== Proof.RefChain.lean ====
/-
  The neighbour-mean aggregation, as the host computes it, written as a function of the edge list and the features.

  The edge list's first row holds each edge's source node and its second row the destination. The in-degree of a node
  is the sum of ones over the edges that end there; the inverse degree is `1 / max (deg, 1)` where the degree is
  positive and `0` elsewhere. The rows of the features at the edges' sources are taken (an index below zero counts
  from the end, and a row still out of range reads as the fill word), added up at the edges' destinations, and every
  row of the sums is multiplied by its node's inverse degree.
-/
import proofs.«137018_j9998683865369_1_alg».proof.ReferenceIdeal

noncomputable section

namespace Cert.ReferenceIdeal.Chain

open Idealize.ShloMosaic Cert.ReferenceIdeal
open Cert.ReferenceIdeal.Facts₀ Cert.ReferenceIdeal.Facts

variable {F : FTy → Type} [FloatOps F] [Cert.ReferenceIdeal.Facts]

/-- The edges' source nodes: row 0 of the edge list. -/
def srcIdx (ei : Vec F S2x800000 .i32) : Vec F S800000 .i32 :=
  shapeCast S800000 (extractStridedSlice S1x800000 ![0, 0] ei slices_S2x800000_S1x800000_0_0) shapeCasts_S1x800000_S800000

/-- The edges' destination nodes: row 1 of the edge list. -/
def dstIdx (ei : Vec F S2x800000 .i32) : Vec F S800000 .i32 :=
  shapeCast S800000 (extractStridedSlice S1x800000 ![1, 0] ei slices_S2x800000_S1x800000_1_0) shapeCasts_S1x800000_S800000

/-- The in-degree of every node: ones added up at the edges' destinations. -/
def degree (dst : Vec F S800000 .i32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- The inverse in-degree: `1 / max (deg, 1)` where the degree is positive, `0` elsewhere. -/
def degInv (dst : Vec F S800000 .i32) : FVec F S50000 .f32 :=
  select
    (cmpf .ogt (degree dst) (broadcastInDim S50000 ![] bcast_S_S50000 (constant S_ .f32 0x00000000#32)))
    (Host.divf (broadcastInDim S50000 ![] bcast_S_S50000 (constant S_ .f32 0x3F800000#32))
      (maximumf (degree dst) (broadcastInDim S50000 ![] bcast_S_S50000 (constant S_ .f32 0x3F800000#32))))
    (broadcastInDim S50000 ![] bcast_S_S50000 (id (constant S_ .f32 0x00000000#32)))

/-- An index below zero counts from the end: `i + 50000` where `i < 0`. -/
def wrapIdx (idx : Vec F S800000 .i32) : Vec F S800000x1 .i32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32)))
      idx)

/-- Which wrapped indices are in range: `0 ≤ i ≤ 49999`. -/
def inRange (idx : Vec F S800000 .i32) : Vec F S800000 .i1 :=
  Host.reduce IntOp.andi
    (andi (cmpi .sge (wrapIdx idx) (broadcastInDim S800000x1 ![] bcast_S_S800000x1 (constantI S_ 32 0#32)))
      (cmpi .sle (wrapIdx idx)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of `feat` at the indices `idx`, one row per edge; a row out of range is the fill word throughout. -/
def takeRows (feat : FVec F S50000x128 .f32) (idx : Vec F S800000 .i32) : FVec F S800000x128 .f32 :=
  select (broadcastInDim S800000x128 ![0] bcast_S800000_S800000x128_0 (inRange idx))
    (Host.gather gather_S50000x128_S800000x1_S800000x128_1_0_n_n_0_1_1128 feat (wrapIdx idx))
    (broadcastInDim S800000x128 ![] bcast_S_S800000x128 (constant S_ .f32 0x7FC00000#32))

/-- The neighbour means of `feat`: its rows at the edges' sources, added up at the edges' destinations, each node's
    row multiplied by the node's inverse degree `dinv`. -/
def aggWith (feat : FVec F S50000x128 .f32) (src dst : Vec F S800000 .i32) (dinv : FVec F S50000 .f32) :
    FVec F S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (takeRows feat src))
    (broadcastInDim S50000x128 ![0, 1] bcast_S50000x1_S50000x128_0_1
      (broadcastInDim S50000x1 ![0] bcast_S50000_S50000x1_0 dinv))

/-- The neighbour means over the edge list `ei`. -/
def agg (ei : Vec F S2x800000 .i32) (feat : FVec F S50000x128 .f32) : FVec F S50000x128 .f32 :=
  aggWith feat (srcIdx ei) (dstIdx ei) (degInv (dstIdx ei))

end Cert.ReferenceIdeal.Chain

end
-- ==== Proof.RefLayers.lean ====
/-
  One layer of the network as the reference's host operations compute it: the product of the neighbour means with
  `W_l`, the bias added to every row, the product of the features with `W_r` added; for the first layer the
  maximum with zero is taken.
-/
import proofs.«137018_j9998683865369_1_alg».proof.ReferenceIdeal

noncomputable section

namespace Cert.ReferenceIdeal.Layers

open Idealize.ShloMosaic Cert.ReferenceIdeal
open Cert.ReferenceIdeal.Facts₀ Cert.ReferenceIdeal.Facts

variable {F : FTy → Type} [FloatOps F] [Cert.ReferenceIdeal.Facts]

/-- The first layer: `max (mean · W_l + b + x · W_r, 0)`. -/
def hostLayerRelu (mean x : FVec F S50000x128 .f32) (Wl : FVec F S128x128 .f32) (b : FVec F S128 .f32)
    (Wr : FVec F S128x128 .f32) : FVec F S50000x128 .f32 :=
  maximumf
    (addf
      (addf (Host.dotGeneral dot_S50000x128_S128x128_S50000x128_1_0_0_1_n_n none mean Wl)
        (broadcastInDim S50000x128 ![0, 1] bcast_S1x128_S50000x128_0_1 (broadcastInDim S1x128 ![1] bcast_S128_S1x128_1 b)))
      (Host.dotGeneral dot_S50000x128_S128x128_S50000x128_1_0_0_1_n_n none x Wr))
    (broadcastInDim S50000x128 ![] bcast_S_S50000x128 (constant S_ .f32 0x00000000#32))

/-- The second layer: `mean · W_l + b + x · W_r`. -/
def hostLayer (mean x : FVec F S50000x128 .f32) (Wl : FVec F S128x64 .f32) (b : FVec F S64 .f32)
    (Wr : FVec F S128x64 .f32) : FVec F S50000x64 .f32 :=
  addf
    (addf (Host.dotGeneral dot_S50000x128_S128x64_S50000x64_1_0_0_1_n_n none mean Wl)
      (broadcastInDim S50000x64 ![0, 1] bcast_S1x64_S50000x64_0_1 (broadcastInDim S1x64 ![1] bcast_S64_S1x64_1 b)))
    (Host.dotGeneral dot_S50000x128_S128x64_S50000x64_1_0_0_1_n_n none x Wr)

end Cert.ReferenceIdeal.Layers

end
-- ==== Proof.RefRun.lean ====
/-
  The reference program's run.

  The reference computes the two-layer network with host operations only. From the edge list it takes the edges'
  source and destination nodes, counts every node's in-degree (ones added up at the destinations) and forms the
  inverse degree, 1 / max (deg, 1) where the degree is positive and 0 elsewhere. A layer's neighbour means are the
  rows of the layer's input at the edges' sources, added up at the edges' destinations, every node's row multiplied
  by the node's inverse degree. The first layer is max (mean(x) · W1l + b1 + x · W1r, 0); the second layer takes the
  first layer's result h for its input: mean(h) · W2l + b2 + h · W2r.

  Below, the program is written as the list of its operations in order (a helper function's operations stand where
  the function is called, over the buffers of that call), in five stretches: the edge data; the neighbour means of
  the features; the first layer; the neighbour means of the first layer's result; the second layer. A straight line
  of operations terminates, and leaves in every buffer the fold of the operations' results over the contents the
  program started from. Each stretch is read by itself, from any contents, as one of the functions above applied to
  the buffers it reads; a stretch writes none of the buffers a later stretch reads from an earlier one, so the
  readings compose. At the result buffer the fold is the function out of the eight arguments; at an argument's
  buffer it is the argument, because no operation writes an argument.
-/
import proofs.«137018_j9998683865369_1_alg».proof.Proof.Gen.ReferenceIdeal
import proofs.«137018_j9998683865369_1_alg».proof.Proof.RefChain
import proofs.«137018_j9998683865369_1_alg».proof.Proof.RefLayers
import Idealize.ShloMosaic.Lib.StableHlo.Run

set_option maxRecDepth 16384
set_option Elab.async false

noncomputable section

namespace Cert.ReferenceIdeal.Run

open Cert.ReferenceIdeal Cert.ReferenceIdeal.Gen Cert.ReferenceIdeal.Chain Cert.ReferenceIdeal.Layers
open Idealize.ShloMosaic Idealize.ShloMosaic.TcCoe Idealize.SL.Sem Idealize.ShloMosaic.StableHlo

variable {F : FTy → Type} [FloatOps F]

/-- The reference's result as a function of its arguments. -/
def out (x : FVec F S50000x128 .f32) (ei : Vec F S2x800000 .i32) (W1l : FVec F S128x128 .f32) (b1 : FVec F S128 .f32)
    (W1r : FVec F S128x128 .f32) (W2l : FVec F S128x64 .f32) (b2 : FVec F S64 .f32) (W2r : FVec F S128x64 .f32) :
    FVec F S50000x64 .f32 :=
  hostLayer (agg ei (hostLayerRelu (agg ei x) x W1l b1 W1r)) (hostLayerRelu (agg ei x) x W1l b1 W1r) W2l b2 W2r

/-! ## The operations -/

/-- The first 23 operations, the edge data: the edge list's two rows (the sources and the destinations); the
    in-degrees, ones added up at the destinations into zeros; degree > 0, max (degree, 1), 1 / max (degree, 1) and
    the zero that stands where the degree is not positive; the choice between the two (the helper writes the zero at
    its own type and broadcasts it): the inverse degree. -/
abbrev opsEdges : List (HloOp τ sig (Elt F)) :=
  [ -- the edge list's rows
    unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    -- the in-degrees
    nullary main_cst (constant S_ .f32 0x3F800000#32),
    unary main_cst main_v4 (broadcastInDim S800000 ![] bcast_S_S800000),
    nullary main_cst_0 (constant S_ .f32 0x00000000#32),
    unary main_cst_0 main_v5 (broadcastInDim S50000 ![] bcast_S_S50000),
    unary main_v3 main_v6 (broadcastInDim S800000x1 ![0] bcast_S800000_S800000x1_0),
    ternary main_v5 main_v6 main_v4 main_v7 (fun x i u => Host.scatterAdd scatter_S50000_S800000x1_S800000_n_0_0_1 x i u),
    -- degree > 0, and 1 / max (degree, 1)
    nullary main_cst_1 (constant S_ .f32 0x00000000#32),
    unary main_cst_1 main_v8 (broadcastInDim S50000 ![] bcast_S_S50000),
    binary main_v7 main_v8 main_v9 (cmpf .ogt),
    nullary main_cst_2 (constant S_ .f32 0x3F800000#32),
    unary main_cst_2 main_v10 (broadcastInDim S50000 ![] bcast_S_S50000),
    binary main_v7 main_v10 main_v11 maximumf,
    nullary main_cst_3 (constant S_ .f32 0x3F800000#32),
    unary main_cst_3 main_v12 (broadcastInDim S50000 ![] bcast_S_S50000),
    binary main_v12 main_v11 main_v13 Host.divf,
    nullary main_cst_4 (constant S_ .f32 0x00000000#32),
    -- the inverse degree: the quotient where the degree is positive, zero elsewhere
    TRef.unary (.of main_cst_4 : TRef sig ⟨S_, .f32⟩) main_call0.v0 id,
    TRef.unary main_call0.v0 main_call0.v1 (broadcastInDim S50000 ![] bcast_S_S50000),
    TRef.ternary (.of main_v9 : TRef sig ⟨S50000, .i1⟩) (.of main_v13 : TRef sig ⟨S50000, .f32⟩) main_call0.v1 main_call0.v2 select ]

/-- The next 30 operations, the neighbour means of the features: their rows at the sources (the row-taking helper: a
    negative index has 50000 added, the wrapped index is tested for 0 ≤ i ≤ 49999, the rows are gathered, and a row
    whose index fails the test is replaced by the fill word), added up at the destinations into zeros and multiplied
    by the inverse degree broadcast along the row. -/
abbrev opsMeans : List (HloOp τ sig (Elt F)) :=
  [ -- the rows of the features at the sources: the index wrapped ...
    TRef.nullary main_call1.c (constantI S_ 32 0#32),
    TRef.unary main_call1.c main_call1.v0 (broadcastInDim S800000 ![] bcast_S_S800000),
    TRef.binary (.of main_v1 : TRef sig ⟨S800000, .i32⟩) main_call1.v0 main_call1.v1 (cmpi .slt),
    TRef.nullary main_call1.c_0 (constantI S_ 32 50000#32),
    TRef.unary main_call1.c_0 main_call1.v2 (broadcastInDim S800000 ![] bcast_S_S800000),
    TRef.binary (.of main_v1 : TRef sig ⟨S800000, .i32⟩) main_call1.v2 main_call1.v3 addi,
    TRef.ternary main_call1.v1 main_call1.v3 (.of main_v1 : TRef sig ⟨S800000, .i32⟩) main_call1.call0.v0 select,
    TRef.unary main_call1.call0.v0 main_call1.v5 (broadcastInDim S800000x1 ![0] bcast_S800000_S800000x1_0),
    -- ... tested for 0 ≤ i ≤ 49999 ...
    TRef.nullary main_call1.c_1 (constantI S1 32 49999#32),
    TRef.nullary main_call1.c_2 (constantI S_ 32 0#32),
    TRef.unary main_call1.c_2 main_call1.v6 (broadcastInDim S800000x1 ![] bcast_S_S800000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S800000x1 ![0, 1] bcast_S1x1_S800000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S800000x1_S800000_d1 h_S_),
    -- ... the rows gathered, and the fill word where the test fails
    TRef.binary (.of main_arg0 : TRef sig ⟨S50000x128, .f32⟩) main_call1.v5 main_call1.v13 (fun x i => Host.gather gather_S50000x128_S800000x1_S800000x128_1_0_n_n_0_1_1128 x i),
    TRef.unary main_call1.v12 main_call1.v14 (broadcastInDim S800000x128 ![0] bcast_S800000_S800000x128_0),
    TRef.nullary main_call1.cst (constant S_ .f32 0x7FC00000#32),
    TRef.unary main_call1.cst main_call1.v15 (broadcastInDim S800000x128 ![] bcast_S_S800000x128),
    TRef.ternary main_call1.v14 main_call1.v13 main_call1.v15 main_call1.v16 select,
    -- the rows added up at the destinations, every node's sum multiplied by its inverse degree
    nullary main_cst_5 (constant S_ .f32 0x00000000#32),
    unary main_cst_5 main_v16 (broadcastInDim S50000x128 ![] bcast_S_S50000x128),
    unary main_v3 main_v17 (broadcastInDim S800000x1 ![0] bcast_S800000_S800000x1_0),
    ternary main_v16 main_v17 main_v15 main_v18 (fun x i u => Host.scatterAdd scatter_S50000x128_S800000x1_S800000x128_1_0_0_1 x i u),
    unary main_v14 main_v19 (broadcastInDim S50000x1 ![0] bcast_S50000_S50000x1_0),
    unary main_v19 main_v20 (broadcastInDim S50000x128 ![0, 1] bcast_S50000x1_S50000x128_0_1),
    binary main_v18 main_v20 main_v21 mulf ]

/-- The next 9 operations, the first layer: means · W1l, the bias broadcast over the rows and added, features · W1r
    added; then the maximum with zero (the helper makes the zeros). -/
abbrev opsFirst : List (HloOp τ sig (Elt F)) :=
  [ binary main_v21 main_arg2 main_v22 (fun l r => Host.dotGeneral dot_S50000x128_S128x128_S50000x128_1_0_0_1_n_n none l r),
    unary main_arg3 main_v23 (broadcastInDim S1x128 ![1] bcast_S128_S1x128_1),
    unary main_v23 main_v24 (broadcastInDim S50000x128 ![0, 1] bcast_S1x128_S50000x128_0_1),
    binary main_v22 main_v24 main_v25 addf,
    binary main_arg0 main_arg4 main_v26 (fun l r => Host.dotGeneral dot_S50000x128_S128x128_S50000x128_1_0_0_1_n_n none l r),
    binary main_v25 main_v26 main_v27 addf,
    -- the maximum with zero
    TRef.nullary main_call2.cst (constant S_ .f32 0x00000000#32),
    TRef.unary main_call2.cst main_call2.v0 (broadcastInDim S50000x128 ![] bcast_S_S50000x128),
    TRef.binary (.of main_v27 : TRef sig ⟨S50000x128, .f32⟩) main_call2.v0 main_call2.v1 maximumf ]

/-- The next 30 operations, the neighbour means of the first layer's result: the same row-taking, summing and scaling,
    with the sources, the destinations and the inverse degrees read where the first stretch left them. -/
abbrev opsHiddenMeans : List (HloOp τ sig (Elt F)) :=
  [ -- the rows of the first layer's result at the sources: the index wrapped ...
    TRef.nullary main_call3.c (constantI S_ 32 0#32),
    TRef.unary main_call3.c main_call3.v0 (broadcastInDim S800000 ![] bcast_S_S800000),
    TRef.binary (.of main_v1 : TRef sig ⟨S800000, .i32⟩) main_call3.v0 main_call3.v1 (cmpi .slt),
    TRef.nullary main_call3.c_0 (constantI S_ 32 50000#32),
    TRef.unary main_call3.c_0 main_call3.v2 (broadcastInDim S800000 ![] bcast_S_S800000),
    TRef.binary (.of main_v1 : TRef sig ⟨S800000, .i32⟩) main_call3.v2 main_call3.v3 addi,
    TRef.ternary main_call3.v1 main_call3.v3 (.of main_v1 : TRef sig ⟨S800000, .i32⟩) main_call3.call0.v0 select,
    TRef.unary main_call3.call0.v0 main_call3.v5 (broadcastInDim S800000x1 ![0] bcast_S800000_S800000x1_0),
    -- ... tested for 0 ≤ i ≤ 49999 ...
    TRef.nullary main_call3.c_1 (constantI S1 32 49999#32),
    TRef.nullary main_call3.c_2 (constantI S_ 32 0#32),
    TRef.unary main_call3.c_2 main_call3.v6 (broadcastInDim S800000x1 ![] bcast_S_S800000x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S800000x1 ![0, 1] bcast_S1x1_S800000x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S800000x1_S800000_d1 h_S_),
    -- ... the rows gathered, and the fill word where the test fails
    TRef.binary (.of main_v28 : TRef sig ⟨S50000x128, .f32⟩) main_call3.v5 main_call3.v13 (fun x i => Host.gather gather_S50000x128_S800000x1_S800000x128_1_0_n_n_0_1_1128 x i),
    TRef.unary main_call3.v12 main_call3.v14 (broadcastInDim S800000x128 ![0] bcast_S800000_S800000x128_0),
    TRef.nullary main_call3.cst (constant S_ .f32 0x7FC00000#32),
    TRef.unary main_call3.cst main_call3.v15 (broadcastInDim S800000x128 ![] bcast_S_S800000x128),
    TRef.ternary main_call3.v14 main_call3.v13 main_call3.v15 main_call3.v16 select,
    -- the rows added up at the destinations, every node's sum multiplied by its inverse degree
    nullary main_cst_6 (constant S_ .f32 0x00000000#32),
    unary main_cst_6 main_v30 (broadcastInDim S50000x128 ![] bcast_S_S50000x128),
    unary main_v3 main_v31 (broadcastInDim S800000x1 ![0] bcast_S800000_S800000x1_0),
    ternary main_v30 main_v31 main_v29 main_v32 (fun x i u => Host.scatterAdd scatter_S50000x128_S800000x1_S800000x128_1_0_0_1 x i u),
    unary main_v14 main_v33 (broadcastInDim S50000x1 ![0] bcast_S50000_S50000x1_0),
    unary main_v33 main_v34 (broadcastInDim S50000x128 ![0, 1] bcast_S50000x1_S50000x128_0_1),
    binary main_v32 main_v34 main_v35 mulf ]

/-- The last 6 operations, the second layer: means · W2l, the bias broadcast over the rows and added, first layer's
    result · W2r added. -/
abbrev opsSecond : List (HloOp τ sig (Elt F)) :=
  [ binary main_v35 main_arg5 main_v36 (fun l r => Host.dotGeneral dot_S50000x128_S128x64_S50000x64_1_0_0_1_n_n none l r),
    unary main_arg6 main_v37 (broadcastInDim S1x64 ![1] bcast_S64_S1x64_1),
    unary main_v37 main_v38 (broadcastInDim S50000x64 ![0, 1] bcast_S1x64_S50000x64_0_1),
    binary main_v36 main_v38 main_v39 addf,
    binary main_v28 main_arg7 main_v40 (fun l r => Host.dotGeneral dot_S50000x128_S128x64_S50000x64_1_0_0_1_n_n none l r),
    binary main_v39 main_v40 main_v41 addf ]

/-- The program's 98 operations, in order. -/
abbrev ops : List (HloOp τ sig (Elt F)) := opsEdges ++ (opsMeans ++ (opsFirst ++ (opsHiddenMeans ++ opsSecond)))

set_option maxHeartbeats 4000000 in
/-- The program is that straight line: with each helper function's definition opened where it is called, and the
    sequencing re-associated, both sides are the same chain of single operations. -/
theorem main_eq (c : Dev nD) : main (F := F) c = seq ops := by
  simp only [main, fn_where.body, fn_where_0.body, fn_take.body, fn_relu.body, fn_take_1.body, seq_append, seq, bind_assoc,
    pure_bind]
  rfl

/-- No buffer and no semaphore of the program is scoped to a region: it has no kernel. -/
theorem scopedRefs_eq : (Finset.univ.filter fun b : Ref sig .tc => b.isScoped) = ∅ := by decide
theorem scopedSems_eq : (Finset.univ.filter fun sm : SemLoc sig => sm.isScoped .tc) = ∅ := by decide

/-! Every operation reads and writes buffers of the TensorCore only: stretch by stretch, then for the whole line. -/

theorem opsEdges_sub : (opsEdges : List (HloOp τ sig (Elt F))).Forall fun op => op.bufs ⊆ tcRefs τ sig :=
  ⟨unary_bufs_sub .., reshape_bufs_sub .., unary_bufs_sub .., reshape_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub ..,
    unary_bufs_sub .., unary_bufs_sub .., ternary_bufs_sub ..⟩

theorem opsMeans_sub : (opsMeans : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., ternary_bufs_sub .., unary_bufs_sub .., unary_bufs_sub ..,
    binary_bufs_sub ..⟩

theorem opsFirst_sub : (opsFirst : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., unary_bufs_sub .., binary_bufs_sub ..⟩

theorem opsHiddenMeans_sub : (opsHiddenMeans : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., ternary_bufs_sub .., unary_bufs_sub .., unary_bufs_sub ..,
    binary_bufs_sub ..⟩

theorem opsSecond_sub : (opsSecond : List (HloOp τ sig (Elt F))).Forall fun op => op.bufs ⊆ tcRefs τ sig :=
  ⟨binary_bufs_sub .., unary_bufs_sub .., unary_bufs_sub .., binary_bufs_sub .., binary_bufs_sub .., binary_bufs_sub ..⟩

/-- An operation of the whole line is an operation of one of the five stretches. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsEdges_sub op h
    rcases List.mem_append.mp h with h | h
    · exact List.forall_iff_forall_mem.mp opsMeans_sub op h
    rcases List.mem_append.mp h with h | h
    · exact List.forall_iff_forall_mem.mp opsFirst_sub op h
    rcases List.mem_append.mp h with h | h
    · exact List.forall_iff_forall_mem.mp opsHiddenMeans_sub op h
    · exact List.forall_iff_forall_mem.mp opsSecond_sub op h

/-! ## The fold, read

The contents after the operations are their fold over the starting contents: every operation's result stands in the
buffer it writes, and a buffer that no later operation writes keeps it. The fold over a concatenation is the fold over
the second list from the fold over the first, which lets each stretch be read by itself. -/

/-- The fold over two lists one after the other. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The whole line's fold, stretch after stretch. -/
theorem after_ops (V : Valuation τ sig (Elt F)) :
    after (ops (F := F)) V
      = after opsSecond (after opsHiddenMeans (after opsFirst (after opsMeans (after opsEdges V)))) := by
  show after (opsEdges ++ (opsMeans ++ (opsFirst ++ (opsHiddenMeans ++ opsSecond)))) V = _
  rw [after_concat, after_concat, after_concat, after_concat]

/-! ### Each stretch by itself

In each lemma the unrolled fold of the stretch is, term for term, what the definition on the right spells (a helper's
operations move contents between a buffer's type and the tensor type the helper is stated at, which at these buffers is
the identity); the gather, the scatter-add and the reduction stay closed, the equations never look inside them. -/

attribute [local irreducible] Host.gather Host.scatterAdd Host.reduce in
/-- The edges' sources: row 0 of the edge list. -/
theorem edges_src (V : Valuation τ sig (Elt F)) :
    after (opsEdges (F := F)) V (Proc.devRef .tc main_v1) = srcIdx (V (Proc.devRef .tc main_arg1)) := by
  after_results_simp
  rfl

attribute [local irreducible] Host.gather Host.scatterAdd Host.reduce in
/-- The edges' destinations: row 1 of the edge list. -/
theorem edges_dst (V : Valuation τ sig (Elt F)) :
    after (opsEdges (F := F)) V (Proc.devRef .tc main_v3) = dstIdx (V (Proc.devRef .tc main_arg1)) := by
  after_results_simp
  rfl

attribute [local irreducible] Host.gather Host.scatterAdd Host.reduce in
/-- The inverse in-degrees, from the destinations. -/
theorem edges_dinv (V : Valuation τ sig (Elt F)) :
    after (opsEdges (F := F)) V (Proc.devRef .tc main_v14) = degInv (dstIdx (V (Proc.devRef .tc main_arg1))) := by
  after_results_simp
  rfl

attribute [local irreducible] Host.gather Host.scatterAdd Host.reduce in
/-- From any contents `W`: the neighbour means of the features in `main_arg0`, taken with the sources, destinations and
    inverse degrees found in `main_v1`, `main_v3` and `main_v14`. -/
theorem means_eq (W : Valuation τ sig (Elt F)) :
    after (opsMeans (F := F)) W (Proc.devRef .tc main_v21)
      = aggWith (W (Proc.devRef .tc main_arg0)) (W (Proc.devRef .tc main_v1)) (W (Proc.devRef .tc main_v3))
          (W (Proc.devRef .tc main_v14)) := by
  after_results_simp
  rfl

/-- From any contents `W`: the first layer, of the means in `main_v21` and the features in `main_arg0`. -/
theorem first_eq (W : Valuation τ sig (Elt F)) :
    after (opsFirst (F := F)) W (Proc.devRef .tc main_v28)
      = hostLayerRelu (W (Proc.devRef .tc main_v21)) (W (Proc.devRef .tc main_arg0)) (W (Proc.devRef .tc main_arg2))
          (W (Proc.devRef .tc main_arg3)) (W (Proc.devRef .tc main_arg4)) := by
  after_results_simp
  rfl

attribute [local irreducible] Host.gather Host.scatterAdd Host.reduce in
/-- From any contents `W`: the neighbour means of the features in `main_v28`, taken with the sources, destinations and
    inverse degrees found in `main_v1`, `main_v3` and `main_v14`. -/
theorem hiddenMeans_eq (W : Valuation τ sig (Elt F)) :
    after (opsHiddenMeans (F := F)) W (Proc.devRef .tc main_v35)
      = aggWith (W (Proc.devRef .tc main_v28)) (W (Proc.devRef .tc main_v1)) (W (Proc.devRef .tc main_v3))
          (W (Proc.devRef .tc main_v14)) := by
  after_results_simp
  rfl

/-- From any contents `W`: the second layer, of the means in `main_v35` and the features in `main_v28`. -/
theorem second_eq (W : Valuation τ sig (Elt F)) :
    after (opsSecond (F := F)) W (Proc.devRef .tc main_v41)
      = hostLayer (W (Proc.devRef .tc main_v35)) (W (Proc.devRef .tc main_v28)) (W (Proc.devRef .tc main_arg5))
          (W (Proc.devRef .tc main_arg6)) (W (Proc.devRef .tc main_arg7)) := by
  after_results_simp
  rfl

/-! ### What the stretches leave alone

A stretch writes only the buffers of its own operations' results; the buffers a later stretch reads from an earlier
one, and the arguments, pass through. -/

/-- The first stretch does not write the features. -/
theorem edges_keep_x (V : Valuation τ sig (Elt F)) :
    after (opsEdges (F := F)) V (Proc.devRef .tc main_arg0) = V (Proc.devRef .tc main_arg0) := by
  after_results_simp

/-- The first two stretches write neither the features nor the first layer's weights and bias. -/
theorem means_keep_x (V : Valuation τ sig (Elt F)) :
    after (opsMeans (F := F)) (after opsEdges V) (Proc.devRef .tc main_arg0) = V (Proc.devRef .tc main_arg0) := by
  after_results_simp
theorem means_keep_W1l (V : Valuation τ sig (Elt F)) :
    after (opsMeans (F := F)) (after opsEdges V) (Proc.devRef .tc main_arg2) = V (Proc.devRef .tc main_arg2) := by
  after_results_simp
theorem means_keep_b1 (V : Valuation τ sig (Elt F)) :
    after (opsMeans (F := F)) (after opsEdges V) (Proc.devRef .tc main_arg3) = V (Proc.devRef .tc main_arg3) := by
  after_results_simp
theorem means_keep_W1r (V : Valuation τ sig (Elt F)) :
    after (opsMeans (F := F)) (after opsEdges V) (Proc.devRef .tc main_arg4) = V (Proc.devRef .tc main_arg4) := by
  after_results_simp

/-- The second and third stretches write neither the sources nor the destinations nor the inverse degrees. -/
theorem first_keep_src (W : Valuation τ sig (Elt F)) :
    after (opsFirst (F := F)) (after opsMeans W) (Proc.devRef .tc main_v1) = W (Proc.devRef .tc main_v1) := by
  after_results_simp
theorem first_keep_dst (W : Valuation τ sig (Elt F)) :
    after (opsFirst (F := F)) (after opsMeans W) (Proc.devRef .tc main_v3) = W (Proc.devRef .tc main_v3) := by
  after_results_simp
theorem first_keep_dinv (W : Valuation τ sig (Elt F)) :
    after (opsFirst (F := F)) (after opsMeans W) (Proc.devRef .tc main_v14) = W (Proc.devRef .tc main_v14) := by
  after_results_simp

/-- The fourth stretch does not write the first layer's result. -/
theorem hiddenMeans_keep_hidden (W : Valuation τ sig (Elt F)) :
    after (opsHiddenMeans (F := F)) W (Proc.devRef .tc main_v28) = W (Proc.devRef .tc main_v28) := by
  after_results_simp

/-- The first four stretches do not write the second layer's weights and bias. -/
theorem hiddenMeans_keep_W2l (V : Valuation τ sig (Elt F)) :
    after (opsHiddenMeans (F := F)) (after opsFirst (after opsMeans (after opsEdges V))) (Proc.devRef .tc main_arg5)
      = V (Proc.devRef .tc main_arg5) := by
  after_results_simp
theorem hiddenMeans_keep_b2 (V : Valuation τ sig (Elt F)) :
    after (opsHiddenMeans (F := F)) (after opsFirst (after opsMeans (after opsEdges V))) (Proc.devRef .tc main_arg6)
      = V (Proc.devRef .tc main_arg6) := by
  after_results_simp
theorem hiddenMeans_keep_W2r (V : Valuation τ sig (Elt F)) :
    after (opsHiddenMeans (F := F)) (after opsFirst (after opsMeans (after opsEdges V))) (Proc.devRef .tc main_arg7)
      = V (Proc.devRef .tc main_arg7) := by
  after_results_simp

/-! ### The stretches composed -/

/-- After two stretches: the neighbour means of the features over the edge list. By definition these are the means
    taken with the list's sources, destinations and inverse degrees, which is what the first stretch left. -/
theorem means_agg (V : Valuation τ sig (Elt F)) :
    after (opsMeans (F := F)) (after opsEdges V) (Proc.devRef .tc main_v21)
      = agg (V (Proc.devRef .tc main_arg1)) (V (Proc.devRef .tc main_arg0)) := by
  refine (means_eq (after opsEdges V)).trans ?_
  rw [edges_keep_x V, edges_src V, edges_dst V, edges_dinv V]
  rfl

/-- After three stretches: the first layer's result. -/
theorem hidden_eq (V : Valuation τ sig (Elt F)) :
    after (opsFirst (F := F)) (after opsMeans (after opsEdges V)) (Proc.devRef .tc main_v28)
      = hostLayerRelu (agg (V (Proc.devRef .tc main_arg1)) (V (Proc.devRef .tc main_arg0))) (V (Proc.devRef .tc main_arg0))
          (V (Proc.devRef .tc main_arg2)) (V (Proc.devRef .tc main_arg3)) (V (Proc.devRef .tc main_arg4)) := by
  refine (first_eq (after opsMeans (after opsEdges V))).trans ?_
  rw [means_agg V, means_keep_x V, means_keep_W1l V, means_keep_b1 V, means_keep_W1r V]

/-- After three stretches the sources, the destinations and the inverse degrees are as the first left them. -/
theorem hidden_src (V : Valuation τ sig (Elt F)) :
    after (opsFirst (F := F)) (after opsMeans (after opsEdges V)) (Proc.devRef .tc main_v1)
      = srcIdx (V (Proc.devRef .tc main_arg1)) :=
  (first_keep_src _).trans (edges_src V)
theorem hidden_dst (V : Valuation τ sig (Elt F)) :
    after (opsFirst (F := F)) (after opsMeans (after opsEdges V)) (Proc.devRef .tc main_v3)
      = dstIdx (V (Proc.devRef .tc main_arg1)) :=
  (first_keep_dst _).trans (edges_dst V)
theorem hidden_dinv (V : Valuation τ sig (Elt F)) :
    after (opsFirst (F := F)) (after opsMeans (after opsEdges V)) (Proc.devRef .tc main_v14)
      = degInv (dstIdx (V (Proc.devRef .tc main_arg1))) :=
  (first_keep_dinv _).trans (edges_dinv V)

/-- After four stretches: the neighbour means of the first layer's result over the edge list. -/
theorem hiddenMeans_agg (V : Valuation τ sig (Elt F)) :
    after (opsHiddenMeans (F := F)) (after opsFirst (after opsMeans (after opsEdges V))) (Proc.devRef .tc main_v35)
      = agg (V (Proc.devRef .tc main_arg1))
          (hostLayerRelu (agg (V (Proc.devRef .tc main_arg1)) (V (Proc.devRef .tc main_arg0))) (V (Proc.devRef .tc main_arg0))
            (V (Proc.devRef .tc main_arg2)) (V (Proc.devRef .tc main_arg3)) (V (Proc.devRef .tc main_arg4))) := by
  refine (hiddenMeans_eq (after opsFirst (after opsMeans (after opsEdges V)))).trans ?_
  rw [hidden_eq V, hidden_src V, hidden_dst V, hidden_dinv V]
  rfl

/-- At the result buffer the whole fold is `out` of the arguments: the second layer, of the means of the first layer's
    result and of that result, with the second layer's weights and bias as they were at the start. -/
theorem out_eq (V : Valuation τ sig (Elt F)) :
    after (ops (F := F)) V (Proc.devRef .tc main_v41)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [after_ops]
  refine (second_eq _).trans ?_
  rw [hiddenMeans_agg V, hiddenMeans_keep_hidden, hidden_eq V, hiddenMeans_keep_W2l V, hiddenMeans_keep_b2 V,
    hiddenMeans_keep_W2r V]
  rfl

/-! No operation writes an argument's buffer: at each of the eight the fold is what was there. -/

theorem arg0_eq (V : Valuation τ sig (Elt F)) :
    after (ops (F := F)) V (Proc.devRef .tc main_arg0) = V (Proc.devRef .tc main_arg0) := by
  rw [after_ops]; after_results_simp
theorem arg1_eq (V : Valuation τ sig (Elt F)) :
    after (ops (F := F)) V (Proc.devRef .tc main_arg1) = V (Proc.devRef .tc main_arg1) := by
  rw [after_ops]; after_results_simp
theorem arg2_eq (V : Valuation τ sig (Elt F)) :
    after (ops (F := F)) V (Proc.devRef .tc main_arg2) = V (Proc.devRef .tc main_arg2) := by
  rw [after_ops]; after_results_simp
theorem arg3_eq (V : Valuation τ sig (Elt F)) :
    after (ops (F := F)) V (Proc.devRef .tc main_arg3) = V (Proc.devRef .tc main_arg3) := by
  rw [after_ops]; after_results_simp
theorem arg4_eq (V : Valuation τ sig (Elt F)) :
    after (ops (F := F)) V (Proc.devRef .tc main_arg4) = V (Proc.devRef .tc main_arg4) := by
  rw [after_ops]; after_results_simp
theorem arg5_eq (V : Valuation τ sig (Elt F)) :
    after (ops (F := F)) V (Proc.devRef .tc main_arg5) = V (Proc.devRef .tc main_arg5) := by
  rw [after_ops]; after_results_simp
theorem arg6_eq (V : Valuation τ sig (Elt F)) :
    after (ops (F := F)) V (Proc.devRef .tc main_arg6) = V (Proc.devRef .tc main_arg6) := by
  rw [after_ops]; after_results_simp
theorem arg7_eq (V : Valuation τ sig (Elt F)) :
    after (ops (F := F)) V (Proc.devRef .tc main_arg7) = V (Proc.devRef .tc main_arg7) := by
  rw [after_ops]; after_results_simp

/-- From any memory, with every counter at zero: every weakly fair execution of the reference terminates, its
    result buffer holds `out` of the eight arguments as they stood at the start, and the arguments' buffers are
    unchanged. The straight line's run gives every buffer as the fold over the starting contents; the lemmas above
    read the fold at the nine buffers. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c main_v41).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_seq scopedRefs_eq scopedSems_eq defs main (fun _ => ops) main_eq (fun _ => ops_sub) m ρ)

end Cert.ReferenceIdeal.Run

end
-- ==== Proof.RefValue.lean ====
/-
  The reference's two layers are the specification's layers, at the ideal values.

  The reference computes one layer with host operations on whole arrays: the product of the neighbour means with
  `W_l`, plus the bias vector laid out as a one-row matrix and repeated down all 50000 rows, plus the product of the
  features with `W_r`; the first layer then takes the entrywise maximum with an array filled with the float word
  `0x00000000`. Read at node `p` and output column `q`:

  * a product is the sum over the 128 input columns `k` of `lhs (p, k) · rhs (k, q)` (its dimension record is the
    plain "rows by columns" one, so the general lemma on plain products applies);
  * the repeated bias is `b q`: the first broadcast puts entry `q` of the vector at `(0, q)` of a `1 × N` matrix, the
    second reads row `0` of that matrix at every row `p`;
  * the filled array is its one word, at every index;
  * sums and the maximum are entrywise.

  Put together this is literally the specification's entry `(∑ k, mean (p,k) · W_l (k,q)) + b q + ∑ k, x (p,k) · W_r (k,q)`,
  with the maximum against the same zero word for the first layer. Nothing is rearranged: the host's order of additions
  is the specification's.
-/
import proofs.«137018_j9998683865369_1_alg».proof.Proof.Gen.ReferenceIdeal
import proofs.«137018_j9998683865369_1_alg».proof.Proof.RefLayers
import proofs.«137018_j9998683865369_1_alg».proof.Proof.Spec
import proofs.«137018_j9998683865369_1_alg».proof.Proof.LibDot
import Idealize.ShloMosaic.Lib.Pipeline.Value

noncomputable section

namespace Cert.ReferenceIdeal.LayerValue

open Cert.ReferenceIdeal Cert.ReferenceIdeal.Gen Cert.ReferenceIdeal.Layers
open Idealize.ShloMosaic Idealize.ShloMosaic.ValueIdx

/-! ## The two products

Both products contract axis 1 of the left operand with axis 0 of the right one and have no batch axis: their printed
dimension records are the plain `M × K` by `K × N` record (the lists agree; the well-formedness field is a proof). -/

/-- The record of the `50000 × 128` by `128 × 128` product is the plain one. -/
theorem dot128_plain :
    dot_S50000x128_S128x128_S50000x128_1_0_0_1_n_n = DotDims.plain 50000 128 128 := rfl

/-- The record of the `50000 × 128` by `128 × 64` product is the plain one. -/
theorem dot64_plain :
    dot_S50000x128_S128x64_S50000x64_1_0_0_1_n_n = DotDims.plain 50000 128 64 := rfl

/-- The host's `50000 × 128` by `128 × 128` product at entry `(p, q)`: the sum over the shared axis. -/
theorem hostDot128_apply (l : FVec Ideal S50000x128 .f32) (r : FVec Ideal S128x128 .f32) (p : Fin 50000) (q : Fin 128) :
    Host.dotGeneral (F := Ideal) dot_S50000x128_S128x128_S50000x128_1_0_0_1_n_n none l r (ix2 p q)
      = ∑ k : Fin 128, l (ix2 p k) * r (ix2 k q) := by
  rw [dot128_plain]
  exact Cert.GNN.dotGeneral_plain_apply none .single l r p q

/-- The host's `50000 × 128` by `128 × 64` product at entry `(p, q)`: the sum over the shared axis. -/
theorem hostDot64_apply (l : FVec Ideal S50000x128 .f32) (r : FVec Ideal S128x64 .f32) (p : Fin 50000) (q : Fin 64) :
    Host.dotGeneral (F := Ideal) dot_S50000x128_S128x64_S50000x64_1_0_0_1_n_n none l r (ix2 p q)
      = ∑ k : Fin 128, l (ix2 p k) * r (ix2 k q) := by
  rw [dot64_plain]
  exact Cert.GNN.dotGeneral_plain_apply none .single l r p q

/-! ## The bias, repeated down the rows

A `broadcast_in_dim` reads, at an index `j` of its result, the operand at the index whose coordinate on axis `a` is
`j`'s coordinate on the result axis that `a` is sent to — or `0` where the operand's axis has extent one. The vector
`[N]` goes to `[1, N]` along axis 1, so `(0, q)` reads entry `q`; the matrix `[1, N]` goes to `[50000, N]` along axes
`0, 1`, its unit axis 0 read at `0`, so `(p, q)` reads `(0, q)`. -/

/-- The bias of the first layer at `(p, q)` is `b q`. -/
theorem bias128_apply (b : FVec Ideal S128 .f32) (p : Fin 50000) (q : Fin 128) :
    broadcastInDim S50000x128 ![0, 1] bcast_S1x128_S50000x128_0_1
        (broadcastInDim S1x128 ![1] bcast_S128_S1x128_1 b) (ix2 p q) = b (ix1 q) := by
  -- down the rows: `(p, q)` reads the one row at `(0, q)`
  refine (broadcastInDim_apply ![0, 1] bcast_S1x128_S50000x128_0_1 _ (ix2 p q) (ix2 (0 : Fin 1) q) ?_).trans ?_
  · intro a
    match a with
    | ⟨0, _⟩ => rfl
    | ⟨1, _⟩ => rfl
  -- the vector as a one-row matrix: `(0, q)` reads entry `q`
  · refine broadcastInDim_apply ![1] bcast_S128_S1x128_1 b (ix2 (0 : Fin 1) q) (ix1 q) ?_
    intro a
    match a with
    | ⟨0, _⟩ => rfl

/-- The bias of the second layer at `(p, q)` is `b q`. -/
theorem bias64_apply (b : FVec Ideal S64 .f32) (p : Fin 50000) (q : Fin 64) :
    broadcastInDim S50000x64 ![0, 1] bcast_S1x64_S50000x64_0_1
        (broadcastInDim S1x64 ![1] bcast_S64_S1x64_1 b) (ix2 p q) = b (ix1 q) := by
  refine (broadcastInDim_apply ![0, 1] bcast_S1x64_S50000x64_0_1 _ (ix2 p q) (ix2 (0 : Fin 1) q) ?_).trans ?_
  · intro a
    match a with
    | ⟨0, _⟩ => rfl
    | ⟨1, _⟩ => rfl
  · refine broadcastInDim_apply ![1] bcast_S64_S1x64_1 b (ix2 (0 : Fin 1) q) (ix1 q) ?_
    intro a
    match a with
    | ⟨0, _⟩ => rfl

/-! ## The array of zeros

A scalar has no axes, so its broadcast reads the one scalar at every index; the scalar is the constant's word, kept
as a word (the specification compares against the same word). -/

/-- The zero array of the first layer, at any index, is the float word `0x00000000`. -/
theorem zeros_apply (j : S50000x128.Idx) :
    broadcastInDim S50000x128 ![] bcast_S_S50000x128 (constant (F := Ideal) S_ .f32 0x00000000#32) j
      = Ideal.ofBits .f32 0x00000000#32 := rfl

/-! ## The layers -/

/-- The first layer as the host computes it is the specification's: at `(p, q)`, the maximum with the zero word of
    `(∑ k, mean (p,k) · W_l (k,q)) + b q + ∑ k, x (p,k) · W_r (k,q)`. -/
theorem hostLayerRelu_eq (mean x : FVec Ideal S50000x128 .f32) (Wl : FVec Ideal S128x128 .f32) (b : FVec Ideal S128 .f32)
    (Wr : FVec Ideal S128x128 .f32) :
    hostLayerRelu (F := Ideal) mean x Wl b Wr = Cert.Sage.layerRelu mean x Wl b Wr := by
  funext i
  obtain ⟨p, q, rfl⟩ : ∃ (p : Fin 50000) (q : Fin 128), i = ix2 p q := ⟨i 0, i 1, eq_ix2 i⟩
  rw [Cert.Sage.layerRelu_apply]
  unfold hostLayerRelu Cert.Sage.layerAt
  -- the maximum and the two additions are entrywise
  show max ((Host.dotGeneral (F := Ideal) dot_S50000x128_S128x128_S50000x128_1_0_0_1_n_n none mean Wl (ix2 p q)
        + broadcastInDim S50000x128 ![0, 1] bcast_S1x128_S50000x128_0_1
            (broadcastInDim S1x128 ![1] bcast_S128_S1x128_1 b) (ix2 p q))
      + Host.dotGeneral (F := Ideal) dot_S50000x128_S128x128_S50000x128_1_0_0_1_n_n none x Wr (ix2 p q))
      (broadcastInDim S50000x128 ![] bcast_S_S50000x128 (constant (F := Ideal) S_ .f32 0x00000000#32) (ix2 p q)) = _
  rw [hostDot128_apply, hostDot128_apply, bias128_apply, zeros_apply]

/-- The second layer as the host computes it is the specification's: at `(p, q)`,
    `(∑ k, mean (p,k) · W_l (k,q)) + b q + ∑ k, x (p,k) · W_r (k,q)`. -/
theorem hostLayer_eq (mean x : FVec Ideal S50000x128 .f32) (Wl : FVec Ideal S128x64 .f32) (b : FVec Ideal S64 .f32)
    (Wr : FVec Ideal S128x64 .f32) :
    hostLayer (F := Ideal) mean x Wl b Wr = Cert.Sage.layer mean x Wl b Wr := by
  funext i
  obtain ⟨p, q, rfl⟩ : ∃ (p : Fin 50000) (q : Fin 64), i = ix2 p q := ⟨i 0, i 1, eq_ix2 i⟩
  rw [Cert.Sage.layer_apply]
  unfold hostLayer Cert.Sage.layerAt
  -- the two additions are entrywise
  show (Host.dotGeneral (F := Ideal) dot_S50000x128_S128x64_S50000x64_1_0_0_1_n_n none mean Wl (ix2 p q)
        + broadcastInDim S50000x64 ![0, 1] bcast_S1x64_S50000x64_0_1
            (broadcastInDim S1x64 ![1] bcast_S64_S1x64_1 b) (ix2 p q))
      + Host.dotGeneral (F := Ideal) dot_S50000x128_S128x64_S50000x64_1_0_0_1_n_n none x Wr (ix2 p q) = _
  rw [hostDot64_apply, hostDot64_apply, bias64_apply]

end Cert.ReferenceIdeal.LayerValue

end
-- ==== Proof.Bridge.lean ====
/-
  The two programs aggregate alike.

  The kernel program and the reference compute the neighbour means by the same host operations, each over its own
  copy of the dimension records (which axes a gather collapses, where a scatter's window goes) and of the shapes'
  side conditions. The copies hold the same numbers, so the two aggregations are one function of the edge list and
  the features.
-/
import proofs.«137018_j9998683865369_1_alg».proof.Proof.KerChain
import proofs.«137018_j9998683865369_1_alg».proof.Proof.RefChain

noncomputable section

namespace Cert.Bridge

open Idealize.ShloMosaic

variable {F : FTy → Type} [FloatOps F] [Cert.KernelIdeal.Facts] [Cert.ReferenceIdeal.Facts]

attribute [local irreducible] Host.gather Host.scatterAdd Host.reduce in
/-- The kernel program's aggregation is the reference's. -/
theorem agg_eq (ei : Vec F ⟨2, ![2, 800000]⟩ .i32) (feat : FVec F ⟨2, ![50000, 128]⟩ .f32) :
    Cert.KernelIdeal.Chain.agg ei feat = Cert.ReferenceIdeal.Chain.agg ei feat := rfl

end Cert.Bridge

end
-- ==== Proof.lean ====
/-
  A two-layer mean-aggregation graph convolution: the kernel program against its reference, over the extended reals.

  Both programs compute, for 50000 nodes and 800000 edges, `layer₂ (A h, h)` with `h = max (layer₁ (A x, x), 0)`,
  where a layer is `mean · W_l + b + x · W_r` and `A` sends node features to their neighbour means (the rows at the
  edges' sources added up at the edges' destinations, times the inverse in-degree). The two programs compute `A` by
  the same host operations. They differ in where a layer is computed: the reference on the host, with two matrix
  products, two additions and a maximum over the whole arrays; the kernel program in a grid of ten points, each
  taking 5000 rows, with the matrix unit's products into a zero accumulator. At the ideal values a product is the
  plain sum over the contracted index on either side, a change of float format is the identity, and both sides add
  in the same order, so the two results are equal entry by entry, whatever the inputs: nothing in the argument
  needs the inputs to be finite.

  The kernel program's run and its two regions' values, the reference's run, and the reading of each side's layer at
  an entry are in the modules imported here; this file states the one equation left between the two results and
  assembles the claims.
-/
import proofs.«137018_j9998683865369_1_alg».proof.Defs
import proofs.«137018_j9998683865369_1_alg».proof.Proof.Gen.Kernel
import proofs.«137018_j9998683865369_1_alg».proof.Proof.Gen.Kernel.Frame
import proofs.«137018_j9998683865369_1_alg».proof.Proof.Gen.KernelIdeal
import proofs.«137018_j9998683865369_1_alg».proof.Proof.Gen.KernelIdeal.Frame
import proofs.«137018_j9998683865369_1_alg».proof.Proof.Gen.ReferenceIdeal
import proofs.«137018_j9998683865369_1_alg».proof.Proof.Gen.Pre_finite_inputs
import proofs.«137018_j9998683865369_1_alg».proof.Proof.KerValue
import proofs.«137018_j9998683865369_1_alg».proof.Proof.RefRun
import proofs.«137018_j9998683865369_1_alg».proof.Proof.RefValue
import proofs.«137018_j9998683865369_1_alg».proof.Proof.Bridge
import Idealize.ShloMosaic.Adequacy
import Idealize.ShloMosaic.Init

noncomputable section

namespace Cert.Proof

open Idealize.ShloMosaic Idealize.SL.Sem

/-- The reference's result is the network of its arguments over the kernel program's aggregation: each of its layers is
    the specification's layer, and its aggregation is the kernel program's. -/
theorem ref_out_eq (x : FVec Ideal Cert.ReferenceIdeal.S50000x128 .f32) (ei : Vec Ideal Cert.ReferenceIdeal.S2x800000 .i32)
    (W1l : FVec Ideal Cert.ReferenceIdeal.S128x128 .f32) (b1 : FVec Ideal Cert.ReferenceIdeal.S128 .f32)
    (W1r : FVec Ideal Cert.ReferenceIdeal.S128x128 .f32) (W2l : FVec Ideal Cert.ReferenceIdeal.S128x64 .f32)
    (b2 : FVec Ideal Cert.ReferenceIdeal.S64 .f32) (W2r : FVec Ideal Cert.ReferenceIdeal.S128x64 .f32) :
    Cert.ReferenceIdeal.Run.out (F := Ideal) x ei W1l b1 W1r W2l b2 W2r
      = Cert.Sage.net (Cert.KernelIdeal.Chain.agg (F := Ideal) ei) x W1l b1 W1r W2l b2 W2r := by
  unfold Cert.ReferenceIdeal.Run.out
  rw [Cert.ReferenceIdeal.LayerValue.hostLayer_eq, Cert.ReferenceIdeal.LayerValue.hostLayerRelu_eq]
  simp only [Cert.Sage.net, Cert.Sage.hidden, Cert.Bridge.agg_eq]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- The ideal pass rewrote nothing. -/
theorem preserves : Cert.preserves_Kernel_KernelIdeal := trivial

/-- From memories that agree on the arguments both programs end at the network's result of those arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact ref_out_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
